-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S5000x128 : Shape := ⟨2, ![5000, 128]⟩
abbrev S100000 : Shape := ⟨1, ![100000]⟩
abbrev S1x100000 : Shape := ⟨2, ![1, 100000]⟩
abbrev S2x100000 : Shape := ⟨2, ![2, 100000]⟩
abbrev S2x1800000 : Shape := ⟨2, ![2, 1800000]⟩
abbrev S1x1800000 : Shape := ⟨2, ![1, 1800000]⟩
abbrev S1800000 : Shape := ⟨1, ![1800000]⟩
abbrev S_ : Shape := ⟨0, ![]⟩
abbrev S1800000x1 : Shape := ⟨2, ![1800000, 1]⟩
abbrev S1800000x128 : Shape := ⟨2, ![1800000, 128]⟩
abbrev S1x128 : Shape := ⟨2, ![1, 128]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 74
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000x128, .f32⟩
  | .hbm, ⟨9, _⟩ => ⟨S100000, .i32⟩
  | .hbm, ⟨10, _⟩ => ⟨S1x100000, .i32⟩
  | .hbm, ⟨11, _⟩ => ⟨S1x100000, .i32⟩
  | .hbm, ⟨12, _⟩ => ⟨S2x100000, .i32⟩
  | .hbm, ⟨13, _⟩ => ⟨S2x1800000, .i32⟩
  | .hbm, ⟨14, _⟩ => ⟨S1x1800000, .i32⟩
  | .hbm, ⟨15, _⟩ => ⟨S1800000, .i32⟩
  | .hbm, ⟨16, _⟩ => ⟨S1x1800000, .i32⟩
  | .hbm, ⟨17, _⟩ => ⟨S1800000, .i32⟩
  | .hbm, ⟨18, _⟩ => ⟨S_, .f32⟩
  | .hbm, ⟨19, _⟩ => ⟨S1800000, .f32⟩
  | .hbm, ⟨20, _⟩ => ⟨S_, .f32⟩
  | .hbm, ⟨21, _⟩ => ⟨S100000, .f32⟩
  | .hbm, ⟨22, _⟩ => ⟨S1800000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1800000, .i32⟩
  | .hbm, ⟨36, _⟩ => ⟨S1800000, .i1⟩
  | .hbm, ⟨37, _⟩ => ⟨S_, .i32⟩
  | .hbm, ⟨38, _⟩ => ⟨S1800000, .i32⟩
  | .hbm, ⟨39, _⟩ => ⟨S1800000, .i32⟩
  | .hbm, ⟨40, _⟩ => ⟨S1800000, .i32⟩
  | .hbm, ⟨41, _⟩ => ⟨S1800000x1, .i32⟩
  | .hbm, ⟨42, _⟩ => ⟨S1800000, .f32⟩
  | .hbm, ⟨43, _⟩ => ⟨S_, .i32⟩
  | .hbm, ⟨44, _⟩ => ⟨S1800000, .i32⟩
  | .hbm, ⟨45, _⟩ => ⟨S1800000, .i1⟩
  | .hbm, ⟨46, _⟩ => ⟨S_, .i32⟩
  | .hbm, ⟨47, _⟩ => ⟨S1800000, .i32⟩
  | .hbm, ⟨48, _⟩ => ⟨S1800000, .i32⟩
  | .hbm, ⟨49, _⟩ => ⟨S1800000, .i32⟩
  | .hbm, ⟨50, _⟩ => ⟨S1800000x1, .i32⟩
  | .hbm, ⟨51, _⟩ => ⟨S1800000, .f32⟩
  | .hbm, ⟨52, _⟩ => ⟨S1800000, .f32⟩
  | .hbm, ⟨53, _⟩ => ⟨S_, .i32⟩
  | .hbm, ⟨54, _⟩ => ⟨S1800000, .i32⟩
  | .hbm, ⟨55, _⟩ => ⟨S1800000, .i1⟩
  | .hbm, ⟨56, _⟩ => ⟨S_, .i32⟩
  | .hbm, ⟨57, _⟩ => ⟨S1800000, .i32⟩
  | .hbm, ⟨58, _⟩ => ⟨S1800000, .i32⟩
  | .hbm, ⟨59, _⟩ => ⟨S1800000, .i32⟩
  | .hbm, ⟨60, _⟩ => ⟨S1800000x1, .i32⟩
  | .hbm, ⟨61, _⟩ => ⟨S1800000x128, .f32⟩
  | .hbm, ⟨62, _⟩ => ⟨S1800000x1, .f32⟩
  | .hbm, ⟨63, _⟩ => ⟨S1800000x128, .f32⟩
  | .hbm, ⟨64, _⟩ => ⟨S1800000x128, .f32⟩
  | .hbm, ⟨65, _⟩ => ⟨S_, .f32⟩
  | .hbm, ⟨66, _⟩ => ⟨S100000x128, .f32⟩
  | .hbm, ⟨67, _⟩ => ⟨S1800000x1, .i32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S1x1, .f32⟩
  | .hbm, ⟨72, _⟩ => ⟨S100000x1, .f32⟩
  | .hbm, ⟨73, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x100000_S2x1800000_d1 : Shape.Concatenates [S2x1600000, S2x100000, S2x100000] S2x1800000 1
  slices_S2x1800000_S1x1800000_0_0 : S2x1800000.Slices ![0, 0] S1x1800000
  shapeCasts_S1x1800000_S1800000 : S1x1800000.ShapeCasts S1800000
  slices_S2x1800000_S1x1800000_1_0 : S2x1800000.Slices ![1, 0] S1x1800000
  bcast_S_S1800000 : S_.BroadcastsInDim S1800000 (![] : Fin 0 → Fin S1800000.rank)
  bcast_S_S100000 : S_.BroadcastsInDim S100000 (![] : Fin 0 → Fin S100000.rank)
  bcast_S1800000_S1800000x1_0 : S1800000.BroadcastsInDim S1800000x1 (![0] : Fin 1 → Fin S1800000x1.rank)
  bcast_S1800000x1_S1800000x128_0_1 : S1800000x1.BroadcastsInDim S1800000x128 (![0, 1] : Fin 2 → Fin S1800000x128.rank)
  bcast_S_S100000x128 : S_.BroadcastsInDim S100000x128 (![] : Fin 0 → Fin S100000x128.rank)
  shapeCasts_S128_S1x128 : S128.ShapeCasts S1x128
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  dot_S5000x128_S128x128_S5000x128_1_0_0_1_n_n_wf : DotDims.WF S5000x128 S128x128 S5000x128 [1] [0] [0] [1] [] []
  scatter_S100000_S1800000x1_S1800000_n_0_0_1_wf : ScatterDims.WF S100000 S1800000x1 S1800000 [] [0] [0] 1
  gather_S100000_S1800000x1_S1800000_n_0_n_n_0_1_1_wf : GatherDims.WF S100000 S1800000x1 S1800000 [] [0] [] [0] [] 1 ![1]
  gather_S100000x128_S1800000x1_S1800000x128_1_0_n_n_0_1_1128_wf : GatherDims.WF S100000x128 S1800000x1 S1800000x128 [1] [0] [] [0] [] 1 ![1, 128]
  scatter_S100000x128_S1800000x1_S1800000x128_1_0_0_1_wf : ScatterDims.WF S100000x128 S1800000x1 S1800000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1800000x1_S1800000_n_0_0_1 : ScatterDims S100000 S1800000x1 S1800000 where
  updateWindowDims := []
  insertedWindowDims := [0]
  scatterDimsToOperandDims := [0]
  indexVectorDim := 1
  wf := scatter_S100000_S1800000x1_S1800000_n_0_0_1_wf
def gather_S100000_S1800000x1_S1800000_n_0_n_n_0_1_1 : GatherDims S100000 S1800000x1 S1800000 where
  offsetDims := []
  collapsedSliceDims := [0]
  operandBatchingDims := []
  startIndicesBatchingDims := []
  startIndexMap := [0]
  indexVectorDim := 1
  sliceSizes := ![1]
  wf := gather_S100000_S1800000x1_S1800000_n_0_n_n_0_1_1_wf
def gather_S100000x128_S1800000x1_S1800000x128_1_0_n_n_0_1_1128 : GatherDims S100000x128 S1800000x1 S1800000x128 where
  offsetDims := [1]
  collapsedSliceDims := [0]
  operandBatchingDims := []
  startIndicesBatchingDims := []
  startIndexMap := [0]
  indexVectorDim := 1
  sliceSizes := ![1, 128]
  wf := gather_S100000x128_S1800000x1_S1800000x128_1_0_n_n_0_1_1128_wf
def scatter_S100000x128_S1800000x1_S1800000x128_1_0_0_1 : ScatterDims S100000x128 S1800000x1 S1800000x128 where
  updateWindowDims := [1]
  insertedWindowDims := [0]
  scatterDimsToOperandDims := [0]
  indexVectorDim := 1
  wf := scatter_S100000x128_S1800000x1_S1800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x100000 : Shape := ⟨2, ![1, 100000]⟩
abbrev S2x100000 : Shape := ⟨2, ![2, 100000]⟩
abbrev S2x1800000 : Shape := ⟨2, ![2, 1800000]⟩
abbrev S1x1800000 : Shape := ⟨2, ![1, 1800000]⟩
abbrev S1800000 : Shape := ⟨1, ![1800000]⟩
abbrev S_ : Shape := ⟨0, ![]⟩
abbrev S1800000x1 : Shape := ⟨2, ![1800000, 1]⟩
abbrev S1800000x128 : Shape := ⟨2, ![1800000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x100000, .i32⟩
  | .hbm, ⟨10, _⟩ => ⟨S1x100000, .i32⟩
  | .hbm, ⟨11, _⟩ => ⟨S2x100000, .i32⟩
  | .hbm, ⟨12, _⟩ => ⟨S2x1800000, .i32⟩
  | .hbm, ⟨13, _⟩ => ⟨S1x1800000, .i32⟩
  | .hbm, ⟨14, _⟩ => ⟨S1800000, .i32⟩
  | .hbm, ⟨15, _⟩ => ⟨S1x1800000, .i32⟩
  | .hbm, ⟨16, _⟩ => ⟨S1800000, .i32⟩
  | .hbm, ⟨17, _⟩ => ⟨S_, .f32⟩
  | .hbm, ⟨18, _⟩ => ⟨S1800000, .f32⟩
  | .hbm, ⟨19, _⟩ => ⟨S_, .f32⟩
  | .hbm, ⟨20, _⟩ => ⟨S100000, .f32⟩
  | .hbm, ⟨21, _⟩ => ⟨S1800000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1800000, .i32⟩
  | .hbm, ⟨35, _⟩ => ⟨S1800000, .i1⟩
  | .hbm, ⟨36, _⟩ => ⟨S_, .i32⟩
  | .hbm, ⟨37, _⟩ => ⟨S1800000, .i32⟩
  | .hbm, ⟨38, _⟩ => ⟨S1800000, .i32⟩
  | .hbm, ⟨39, _⟩ => ⟨S1800000, .i32⟩
  | .hbm, ⟨40, _⟩ => ⟨S1800000x1, .i32⟩
  | .hbm, ⟨41, _⟩ => ⟨S1800000, .f32⟩
  | .hbm, ⟨42, _⟩ => ⟨S_, .i32⟩
  | .hbm, ⟨43, _⟩ => ⟨S1800000, .i32⟩
  | .hbm, ⟨44, _⟩ => ⟨S1800000, .i1⟩
  | .hbm, ⟨45, _⟩ => ⟨S_, .i32⟩
  | .hbm, ⟨46, _⟩ => ⟨S1800000, .i32⟩
  | .hbm, ⟨47, _⟩ => ⟨S1800000, .i32⟩
  | .hbm, ⟨48, _⟩ => ⟨S1800000, .i32⟩
  | .hbm, ⟨49, _⟩ => ⟨S1800000x1, .i32⟩
  | .hbm, ⟨50, _⟩ => ⟨S1800000, .f32⟩
  | .hbm, ⟨51, _⟩ => ⟨S1800000, .f32⟩
  | .hbm, ⟨52, _⟩ => ⟨S100000x128, .f32⟩
  | .hbm, ⟨53, _⟩ => ⟨S_, .i32⟩
  | .hbm, ⟨54, _⟩ => ⟨S1800000, .i32⟩
  | .hbm, ⟨55, _⟩ => ⟨S1800000, .i1⟩
  | .hbm, ⟨56, _⟩ => ⟨S_, .i32⟩
  | .hbm, ⟨57, _⟩ => ⟨S1800000, .i32⟩
  | .hbm, ⟨58, _⟩ => ⟨S1800000, .i32⟩
  | .hbm, ⟨59, _⟩ => ⟨S1800000, .i32⟩
  | .hbm, ⟨60, _⟩ => ⟨S1800000x1, .i32⟩
  | .hbm, ⟨61, _⟩ => ⟨S1800000x128, .f32⟩
  | .hbm, ⟨62, _⟩ => ⟨S1800000x1, .f32⟩
  | .hbm, ⟨63, _⟩ => ⟨S1800000x128, .f32⟩
  | .hbm, ⟨64, _⟩ => ⟨S1800000x128, .f32⟩
  | .hbm, ⟨65, _⟩ => ⟨S_, .f32⟩
  | .hbm, ⟨66, _⟩ => ⟨S100000x128, .f32⟩
  | .hbm, ⟨67, _⟩ => ⟨S1800000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | .hbm, ⟨84, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x100000_S2x1800000_d1 : Shape.Concatenates [S2x1600000, S2x100000, S2x100000] S2x1800000 1
  slices_S2x1800000_S1x1800000_0_0 : S2x1800000.Slices ![0, 0] S1x1800000
  shapeCasts_S1x1800000_S1800000 : S1x1800000.ShapeCasts S1800000
  slices_S2x1800000_S1x1800000_1_0 : S2x1800000.Slices ![1, 0] S1x1800000
  bcast_S_S1800000 : S_.BroadcastsInDim S1800000 (![] : Fin 0 → Fin S1800000.rank)
  bcast_S_S100000 : S_.BroadcastsInDim S100000 (![] : Fin 0 → Fin S100000.rank)
  bcast_S1800000_S1800000x1_0 : S1800000.BroadcastsInDim S1800000x1 (![0] : Fin 1 → Fin S1800000x1.rank)
  bcast_S1800000x1_S1800000x128_0_1 : S1800000x1.BroadcastsInDim S1800000x128 (![0, 1] : Fin 2 → Fin S1800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1800000x1_S1800000_n_0_0_1_wf : ScatterDims.WF S100000 S1800000x1 S1800000 [] [0] [0] 1
  gather_S100000_S1800000x1_S1800000_n_0_n_n_0_1_1_wf : GatherDims.WF S100000 S1800000x1 S1800000 [] [0] [] [0] [] 1 ![1]
  dot_S100000x128_S128x128_S100000x128_1_0_0_1_n_n_wf : DotDims.WF S100000x128 S128x128 S100000x128 [1] [0] [0] [1] [] []
  gather_S100000x128_S1800000x1_S1800000x128_1_0_n_n_0_1_1128_wf : GatherDims.WF S100000x128 S1800000x1 S1800000x128 [1] [0] [] [0] [] 1 ![1, 128]
  scatter_S100000x128_S1800000x1_S1800000x128_1_0_0_1_wf : ScatterDims.WF S100000x128 S1800000x1 S1800000x128 [1] [0] [0] 1
  dot_S100000x128_S128x1_S100000x1_1_0_0_1_n_n_wf : DotDims.WF S100000x128 S128x1 S100000x1 [1] [0] [0] [1] [] []

variable [Facts₀]

def scatter_S100000_S1800000x1_S1800000_n_0_0_1 : ScatterDims S100000 S1800000x1 S1800000 where
  updateWindowDims := []
  insertedWindowDims := [0]
  scatterDimsToOperandDims := [0]
  indexVectorDim := 1
  wf := scatter_S100000_S1800000x1_S1800000_n_0_0_1_wf
def gather_S100000_S1800000x1_S1800000_n_0_n_n_0_1_1 : GatherDims S100000 S1800000x1 S1800000 where
  offsetDims := []
  collapsedSliceDims := [0]
  operandBatchingDims := []
  startIndicesBatchingDims := []
  startIndexMap := [0]
  indexVectorDim := 1
  sliceSizes := ![1]
  wf := gather_S100000_S1800000x1_S1800000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1800000x1_S1800000x128_1_0_n_n_0_1_1128 : GatherDims S100000x128 S1800000x1 S1800000x128 where
  offsetDims := [1]
  collapsedSliceDims := [0]
  operandBatchingDims := []
  startIndicesBatchingDims := []
  startIndexMap := [0]
  indexVectorDim := 1
  sliceSizes := ![1, 128]
  wf := gather_S100000x128_S1800000x1_S1800000x128_1_0_n_n_0_1_1128_wf
def scatter_S100000x128_S1800000x1_S1800000x128_1_0_0_1 : ScatterDims S100000x128 S1800000x1 S1800000x128 where
  updateWindowDims := [1]
  insertedWindowDims := [0]
  scatterDimsToOperandDims := [0]
  indexVectorDim := 1
  wf := scatter_S100000x128_S1800000x1_S1800000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.K.Region0.lean ====
/-
  The first pallas_call (the product of a 5000-row block of the node features with the 128 x 128 convolution weights),
  at any float instance and from any contents `V` of the TensorCore's buffers at its entry: what each window's
  staging buffer holds at a grid point, what the body leaves in the output's buffer (its one store, of the matrix
  product of the two loaded blocks), the body's triple, the pipeline's proof data and its body obligation.
  Point `t` of the 20 reads rows 5000 t … 5000 t + 4999 of the features and the whole weight matrix, and writes
  the same rows of the product.
-/
import proofs.«135737_j63393717289295_1_alg».proof.Proof.Gen.Kernel.Launch
import proofs.«135737_j63393717289295_1_alg».proof.Proof.Gen.Kernel.Skeleton
import proofs.«135737_j63393717289295_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point: fetched there, it is the block;
    not fetched, the block index has not moved and the body left the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window, fetched once: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rRows : Rect S5000x128 := Rect.unit (s := S5000x128) ![0, 0] S5000x128.size inb_S5000x128_S5000x128_0_0
abbrev rWeights : Rect S128x128 := Rect.unit (s := S128x128) ![0, 0] S128x128.size inb_S128x128_S128x128_0_0

/-! ## What the body leaves in the output window's buffer -/

/-- The output's staging buffer after the body: its one store, of the product of the feature block with the weights. -/
def out0_2 (x0 : Vec F S5000x128 .f32) (x1 : Vec F S128x128 .f32) : Vec F S5000x128 .f32 :=
  View.canon [⟨rRows, k0_pay1 (View.ld x0 rRows) (View.ld x1 rWeights)⟩]

/-- The store is of the whole buffer, so it covers it. -/
theorem cover0_2 (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

/-! ## The body's triple -/

set_option maxHeartbeats 1000000 in
/-- The body on whole staging memrefs, the two inputs' at contents `x0`, `x1` and the output's at anything, runs to the
    continuation holding the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at `out0_2` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Region1.lean ====
/-
  The second pallas_call (per 5000-row block: the aggregated messages plus the convolution bias, plus the projection of
  the features, plus the projection bias, clamped below at zero, times the output-head weights, plus the output-head
  bias), at any float instance and from any contents `V` of the TensorCore's buffers at its entry: what each window's
  staging buffer holds at a grid point, what the body leaves in the output's buffer (its one store), the body's triple,
  the pipeline's proof data and its body obligation. Point `t` of the 20 reads rows 5000 t … 5000 t + 4999 of the
  features and of the aggregated messages and the five small operands whole, and writes the same rows of the result.
-/
import proofs.«135737_j63393717289295_1_alg».proof.Proof.Gen.Kernel.Launch
import proofs.«135737_j63393717289295_1_alg».proof.Proof.Gen.Kernel.Skeleton
import proofs.«135737_j63393717289295_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The the feature window's current staging buffer holds its block at every point: fetched there, it is the block; not fetched, the block index has not moved and the body left the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the aggregated-message window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the convolution bias window, fetched once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for the projection weight window, fetched once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same for the projection bias window, fetched once. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The same for the output-head weight window, fetched once. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The same for the output-head bias window, fetched once. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rRows : Rect S5000x128 := Rect.unit (s := S5000x128) ![0, 0] S5000x128.size inb_S5000x128_S5000x128_0_0
abbrev rBias : Rect S1x128 := Rect.unit (s := S1x128) ![0, 0] S1x128.size inb_S1x128_S1x128_0_0
abbrev rWeights : Rect S128x128 := Rect.unit (s := S128x128) ![0, 0] S128x128.size inb_S128x128_S128x128_0_0
abbrev rHead : Rect S128x1 := Rect.unit (s := S128x1) ![0, 0] S128x1.size inb_S128x1_S128x1_0_0
abbrev rOne : Rect S1x1 := Rect.unit (s := S1x1) ![0, 0] S1x1.size inb_S1x1_S1x1_0_0
abbrev rOut : Rect S5000x1 := Rect.unit (s := S5000x1) ![0, 0] S5000x1.size inb_S5000x1_S5000x1_0_0

/-! ## What the body leaves in the output window's buffer -/

/-- The output's staging buffer after the body: its one store, the body's arithmetic on the seven loaded blocks. -/
def out1_7 (x0 : Vec F S5000x128 .f32) (x1 : Vec F S5000x128 .f32) (x2 : Vec F S1x128 .f32) (x3 : Vec F S128x128 .f32) (x4 : Vec F S1x128 .f32) (x5 : Vec F S128x1 .f32) (x6 : Vec F S1x1 .f32) : Vec F S5000x1 .f32 :=
  View.canon [⟨rOut, k1_pay1 (View.ld x0 rRows) (View.ld x1 rRows) (View.ld x2 rBias) (View.ld x3 rWeights) (View.ld x4 rBias) (View.ld x5 rHead) (View.ld x6 rOne)⟩]

/-- The store is of the whole buffer, so it covers it. -/
theorem cover1_7 (p0 : Vec F S5000x1 .f32) (y : S5000x1.Idx) :
    ∃ pc ∈ ([⟨rOut, p0⟩] : List (View.Piece (Elt F) S5000x1 .f32)), y ∈ pc.1.set :=
  View.cover_of_tiled [⟨rOut, p0⟩] S5000x1.size (by rfl) y

/-! ## The body's triple -/

set_option maxHeartbeats 1000000 in
/-- The body on whole staging memrefs, the seven inputs' at contents `x0 … x6` and the output's at anything, runs to the
    continuation holding the inputs' as they were and the output's at `out1_7` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S5000x1 .f32) (harg8 : arg8.IsWhole)
    (x0 : Vec F S5000x128 .f32) (x1 : Vec F S5000x128 .f32) (x2 : Vec F S1x128 .f32) (x3 : Vec F S128x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the second pipeline on core `c`: the arrays as the region finds them; after the body at point `t`
    each input's buffer at its block and the output's at `out1_7` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg1

end
-- ==== Proof.K.Run.lean ====
/-
  The whole program's run: @main is pallas_call 0, three stretches of host operations (the edge list with its self
  loops, the degree normalisation, the gather of the projected features along the edges and their scatter-add per
  destination node, the biases as rows), pallas_call 1, and one last host operation (the result as a vector). The
  contents of the TensorCore's unscoped buffers are followed from the launch to the return: `W0` as launched; `W1` after
  the first pallas_call (its output array at what its 20 write-backs leave, everything else as it was); `W2`, `W3`, `W4`
  after each host stretch; `W5` after the second pallas_call; `W6` at the return. No host operation and no pallas_call
  writes an argument, so each argument array ends as launched; the result buffer ends at `W6`'s contents, which the value
  modules read. Stated at any float instance.
-/
import proofs.«135737_j63393717289295_1_alg».proof.Proof.K.Region0
import proofs.«135737_j63393717289295_1_alg».proof.Proof.K.Region1
import proofs.«135737_j63393717289295_1_alg».proof.Proof.Gen.Kernel.Regions

set_option maxRecDepth 16384

noncomputable section

namespace Cert.Kernel.Whole

open Cert.Kernel Cert.Kernel.Gen Cert.Kernel.Reg Cert.Kernel.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- The same read at the TensorCore's references: what the first pallas_call's proof data take. -/
abbrev E0 : (c : Dev nD) → (b : Ref sig .tc) → Buf (Elt F) ((c : Thread nD τ).loc b) := fun c b => W0 m c b
/-- After the first pallas_call: its arrays at what the pipeline leaves, every other buffer as launched. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev X1 : (c : Dev nD) → (b : Ref sig .tc) → Buf (Elt F) ((c : Thread nD τ).loc b) := fun c b => W1 m c b
theorem hF0 (c : Dev nD) (w : Fin cfg0.W) : (dat0 (E0 m) c).arrAt w cfg0.N = X1 m c (Pipeline.arrRef spec0 w) :=
  (W1_arr m c w).symm
theorem hrest0 (c : Dev nD) : ∀ b, b ∉ Finset.univ.image (Pipeline.arrRef spec0) → X1 m c b = E0 m c b :=
  fun b hb => W1_of_ne m c b fun w e => hb (Finset.mem_image.mpr ⟨w, Finset.mem_univ _, e⟩)

/-- After the first host stretch (the edge list, the degrees, their inverse square roots). -/
abbrev W2 : Dev nD → Valuation τ sig (Elt F) := fun c => StableHlo.after hostOps1 (W1 m c)
/-- After the second (the inverse square roots where the degree is positive, zero elsewhere). -/
abbrev W3 : Dev nD → Valuation τ sig (Elt F) := fun c => StableHlo.after hostOps1_1 (W2 m c)
/-- After the third (the edge weights, the gathered rows scaled and added per destination node, the biases as rows):
    the second pallas_call's entry. -/
abbrev W4 : Dev nD → Valuation τ sig (Elt F) := fun c => StableHlo.after hostOps1_2 (W3 m c)
abbrev E4 : (c : Dev nD) → (b : Ref sig .tc) → Buf (Elt F) ((c : Thread nD τ).loc b) := fun c b => W4 m c b
/-- After the second pallas_call: its arrays at what the pipeline leaves, every other buffer as entered. -/
def W5 (c : Dev nD) : Valuation τ sig (Elt F) :=
  Pipeline.withArrays spec1 c (W4 m c) fun w => (dat1 (E4 m) c).arrAt w cfg1.N
theorem W5_arr (c : Dev nD) (w : Fin cfg1.W) :
    W5 m c (Proc.devRef .tc (Pipeline.arrRef spec1 w)) = (dat1 (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev X5 : (c : Dev nD) → (b : Ref sig .tc) → Buf (Elt F) ((c : Thread nD τ).loc b) := fun c b => W5 m c b
theorem hF1 (c : Dev nD) (w : Fin cfg1.W) : (dat1 (E4 m) c).arrAt w cfg1.N = X5 m c (Pipeline.arrRef spec1 w) :=
  (W5_arr m c w).symm
theorem hrest1 (c : Dev nD) : ∀ b, b ∉ Finset.univ.image (Pipeline.arrRef spec1) → X5 m c b = E4 m c b :=
  fun b hb => W5_of_ne m c b fun w e => hb (Finset.mem_image.mpr ⟨w, Finset.mem_univ _, e⟩)
/-- At the return: after the last host operation (the 100000 × 1 result as a vector). -/
abbrev W6 : Dev nD → Valuation τ sig (Elt F) := fun c => StableHlo.after hostOps2 (W5 m c)

/-! ## The arguments end as launched: no host operation writes one, and a pallas_call reads it through an input window
    or does not touch it -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := (W5_arr m c 0).trans (((dat1 (E4 m) c).arrAt_in 0 rfl _).trans (A_eq1 (E4 m) c 0))
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((dat0 (E0 m) c).arrAt_in 0 rfl _).trans (A_eq0 (E0 m) c 0))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := (W1_arr m c 1).trans (((dat0 (E0 m) c).arrAt_in 1 rfl _).trans (A_eq0 (E0 m) c 1))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1_2 _ hostOps1_2_writes (by decide)
    _ = W2 m c (Proc.devRef .tc main_arg3) := StableHlo.after_of_writes_sub hostOps1_1 _ hostOps1_1_writes (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2 _ hostOps2_writes (by decide)
    _ = W4 m c (Proc.devRef .tc main_arg4) := (W5_arr m c 3).trans (((dat1 (E4 m) c).arrAt_in 3 rfl _).trans (A_eq1 (E4 m) c 3))
    _ = W3 m c (Proc.devRef .tc main_arg4) := StableHlo.after_of_writes_sub hostOps1_2 _ hostOps1_2_writes (by decide)
    _ = W2 m c (Proc.devRef .tc main_arg4) := StableHlo.after_of_writes_sub hostOps1_1 _ hostOps1_1_writes (by decide)
    _ = W1 m c (Proc.devRef .tc main_arg4) := StableHlo.after_of_writes_sub hostOps1 _ hostOps1_writes (by decide)
    _ = W0 m c (Proc.devRef .tc main_arg4) := W1_of_ne m c main_arg4 (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2 _ hostOps2_writes (by decide)
    _ = W4 m c (Proc.devRef .tc main_arg5) := W5_of_ne m c main_arg5 (by decide)
    _ = W3 m c (Proc.devRef .tc main_arg5) := StableHlo.after_of_writes_sub hostOps1_2 _ hostOps1_2_writes (by decide)
    _ = W2 m c (Proc.devRef .tc main_arg5) := StableHlo.after_of_writes_sub hostOps1_1 _ hostOps1_1_writes (by decide)
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2 _ hostOps2_writes (by decide)
    _ = W4 m c (Proc.devRef .tc main_arg6) := (W5_arr m c 5).trans (((dat1 (E4 m) c).arrAt_in 5 rfl _).trans (A_eq1 (E4 m) c 5))
    _ = W3 m c (Proc.devRef .tc main_arg6) := StableHlo.after_of_writes_sub hostOps1_2 _ hostOps1_2_writes (by decide)
    _ = W2 m c (Proc.devRef .tc main_arg6) := StableHlo.after_of_writes_sub hostOps1_1 _ hostOps1_1_writes (by decide)
    _ = W1 m c (Proc.devRef .tc main_arg6) := StableHlo.after_of_writes_sub hostOps1 _ hostOps1_writes (by decide)
    _ = W0 m c (Proc.devRef .tc main_arg6) := W1_of_ne m c main_arg6 (by decide)
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps2 _ hostOps2_writes (by decide)
    _ = W4 m c (Proc.devRef .tc main_arg7) := W5_of_ne m c main_arg7 (by decide)
    _ = W3 m c (Proc.devRef .tc main_arg7) := StableHlo.after_of_writes_sub hostOps1_2 _ hostOps1_2_writes (by decide)
    _ = W2 m c (Proc.devRef .tc main_arg7) := StableHlo.after_of_writes_sub hostOps1_1 _ hostOps1_1_writes (by decide)
    _ = W1 m c (Proc.devRef .tc main_arg7) := StableHlo.after_of_writes_sub hostOps1 _ hostOps1_writes (by decide)
    _ = W0 m c (Proc.devRef .tc main_arg7) := W1_of_ne m c main_arg7 (by decide)
    _ = m ((c : Thread nD τ).loc main_arg7) := rfl

/-! ## The proof data family and the thread state -/

/-- Both pipelines' proof data, each at its own entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents, the generator register. -/
abbrev Tₙ (c : Dev nD) : sProp 𝕄 := iprop(StableHlo.held (c : Thread nD τ) (Pipeline.ucRefs τ sig) (W6 m c) ∗ ∃ r, prngReg c r)

/-! ## The pallas_calls as segments -/

-- a library lemma stated over the pinned configuration unifies with the printed one only when unification may unfold plain
-- definitions in a metavariable's type
set_option backward.isDefEq.respectTransparency.types false in
/-- Pallas_call 0 over the thread state: entered with every unscoped buffer at `W0`, left with them at `W1`. Its
    arrays are split out of the unscoped buffers and put back at what the write-backs leave; the generator register goes
    into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas_call 1 over the thread state: entered with every unscoped buffer at `W4`, left with them at `W5`. Its
    arrays are split out of the unscoped buffers and put back at what the write-backs leave; the generator register goes
    into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (X5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

/-- @main is the run of the segments. -/
theorem main_run (c : Dev nD) : main (F := F) c = Pipeline.Seg.run (segs m) := by
  rw [main_chain c, Pipeline.Seg.run_eq_chain,
    show (segs m).map Pipeline.Seg.prog = [
      Prog.lift (.customCall (Pipeline.entry 0) ()),
      StableHlo.seq hostOps1,
      StableHlo.seq hostOps1_1,
      StableHlo.seq hostOps1_2,
      Prog.lift (.customCall (Pipeline.entry 1) ()),
      StableHlo.seq hostOps2 ] from rfl]

-- the launch theorem's implicit arguments are found by unifying its conclusion with this one, which takes unfolding plain
-- definitions in a metavariable's type
set_option backward.isDefEq.respectTransparency.types false in
/-- THE RUN. From any memory with zero counters every weakly fair execution of @main on the TensorCores terminates,
    nothing faulting, and every final state has the result buffer at the return's contents `W6` and every argument array
    as launched. -/
theorem run (ρ : Dev nD → PrngReg) : θ_run defs (onTc (τ := τ) (main (F := F))) ⟨m, fun _ => 0, ρ⟩ (fun r => ∀ c : Dev nD,
      r.2.mem ((c.tc : Thread nD τ).loc main_v51) = W6 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show (iprop(StableHlo.held (c : Thread nD τ) (Pipeline.ucRefs τ sig) (W6 m c) ∗ (∃ r, prngReg c r) ∗ ∃ W, owes (c : Thread nD τ) (0 : CellTallies nD τ sig Unit) W) : sProp 𝕄)
          ⊢ iprop((StableHlo.held (c : Thread nD τ) (Pipeline.ucRefs τ sig) (W6 m c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v51 (by decide)),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c),
       (h c _ (mem_uc main_arg7 (by decide))).trans (W6_main_arg7 m c)⟩)

/-- The frame: the run with the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run m ρ)

end Cert.Kernel.Whole

end
-- ==== Proof.KI.Region0.lean ====
/-
  The first pallas_call (the product of a 5000-row block of the node features with the 128 x 128 convolution weights),
  at any float instance and from any contents `V` of the TensorCore's buffers at its entry: what each window's
  staging buffer holds at a grid point, what the body leaves in the output's buffer (its one store, of the matrix
  product of the two loaded blocks), the body's triple, the pipeline's proof data and its body obligation.
  Point `t` of the 20 reads rows 5000 t … 5000 t + 4999 of the features and the whole weight matrix, and writes
  the same rows of the product.
-/
import proofs.«135737_j63393717289295_1_alg».proof.Proof.Gen.KernelIdeal.Launch
import proofs.«135737_j63393717289295_1_alg».proof.Proof.Gen.KernelIdeal.Skeleton
import proofs.«135737_j63393717289295_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point: fetched there, it is the block;
    not fetched, the block index has not moved and the body left the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window, fetched once: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rRows : Rect S5000x128 := Rect.unit (s := S5000x128) ![0, 0] S5000x128.size inb_S5000x128_S5000x128_0_0
abbrev rWeights : Rect S128x128 := Rect.unit (s := S128x128) ![0, 0] S128x128.size inb_S128x128_S128x128_0_0

/-! ## What the body leaves in the output window's buffer -/

/-- The output's staging buffer after the body: its one store, of the product of the feature block with the weights. -/
def out0_2 (x0 : Vec F S5000x128 .f32) (x1 : Vec F S128x128 .f32) : Vec F S5000x128 .f32 :=
  View.canon [⟨rRows, k0_pay1 (View.ld x0 rRows) (View.ld x1 rWeights)⟩]

/-- The store is of the whole buffer, so it covers it. -/
theorem cover0_2 (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

/-! ## The body's triple -/

set_option maxHeartbeats 1000000 in
/-- The body on whole staging memrefs, the two inputs' at contents `x0`, `x1` and the output's at anything, runs to the
    continuation holding the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at `out0_2` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Region1.lean ====
/-
  The second pallas_call (per 5000-row block: the aggregated messages plus the convolution bias, plus the projection of
  the features, plus the projection bias, clamped below at zero, times the output-head weights, plus the output-head
  bias), at any float instance and from any contents `V` of the TensorCore's buffers at its entry: what each window's
  staging buffer holds at a grid point, what the body leaves in the output's buffer (its one store), the body's triple,
  the pipeline's proof data and its body obligation. Point `t` of the 20 reads rows 5000 t … 5000 t + 4999 of the
  features and of the aggregated messages and the five small operands whole, and writes the same rows of the result.
-/
import proofs.«135737_j63393717289295_1_alg».proof.Proof.Gen.KernelIdeal.Launch
import proofs.«135737_j63393717289295_1_alg».proof.Proof.Gen.KernelIdeal.Skeleton
import proofs.«135737_j63393717289295_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The the feature window's current staging buffer holds its block at every point: fetched there, it is the block; not fetched, the block index has not moved and the body left the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the aggregated-message window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the convolution bias window, fetched once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for the projection weight window, fetched once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same for the projection bias window, fetched once. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The same for the output-head weight window, fetched once. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The same for the output-head bias window, fetched once. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rRows : Rect S5000x128 := Rect.unit (s := S5000x128) ![0, 0] S5000x128.size inb_S5000x128_S5000x128_0_0
abbrev rBias : Rect S1x128 := Rect.unit (s := S1x128) ![0, 0] S1x128.size inb_S1x128_S1x128_0_0
abbrev rWeights : Rect S128x128 := Rect.unit (s := S128x128) ![0, 0] S128x128.size inb_S128x128_S128x128_0_0
abbrev rHead : Rect S128x1 := Rect.unit (s := S128x1) ![0, 0] S128x1.size inb_S128x1_S128x1_0_0
abbrev rOne : Rect S1x1 := Rect.unit (s := S1x1) ![0, 0] S1x1.size inb_S1x1_S1x1_0_0
abbrev rOut : Rect S5000x1 := Rect.unit (s := S5000x1) ![0, 0] S5000x1.size inb_S5000x1_S5000x1_0_0

/-! ## What the body leaves in the output window's buffer -/

/-- The output's staging buffer after the body: its one store, the body's arithmetic on the seven loaded blocks. -/
def out1_7 (x0 : Vec F S5000x128 .f32) (x1 : Vec F S5000x128 .f32) (x2 : Vec F S1x128 .f32) (x3 : Vec F S128x128 .f32) (x4 : Vec F S1x128 .f32) (x5 : Vec F S128x1 .f32) (x6 : Vec F S1x1 .f32) : Vec F S5000x1 .f32 :=
  View.canon [⟨rOut, k1_pay1 (View.ld x0 rRows) (View.ld x1 rRows) (View.ld x2 rBias) (View.ld x3 rWeights) (View.ld x4 rBias) (View.ld x5 rHead) (View.ld x6 rOne)⟩]

/-- The store is of the whole buffer, so it covers it. -/
theorem cover1_7 (p0 : Vec F S5000x1 .f32) (y : S5000x1.Idx) :
    ∃ pc ∈ ([⟨rOut, p0⟩] : List (View.Piece (Elt F) S5000x1 .f32)), y ∈ pc.1.set :=
  View.cover_of_tiled [⟨rOut, p0⟩] S5000x1.size (by rfl) y

/-! ## The body's triple -/

set_option maxHeartbeats 1000000 in
/-- The body on whole staging memrefs, the seven inputs' at contents `x0 … x6` and the output's at anything, runs to the
    continuation holding the inputs' as they were and the output's at `out1_7` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S5000x1 .f32) (harg8 : arg8.IsWhole)
    (x0 : Vec F S5000x128 .f32) (x1 : Vec F S5000x128 .f32) (x2 : Vec F S1x128 .f32) (x3 : Vec F S128x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the second pipeline on core `c`: the arrays as the region finds them; after the body at point `t`
    each input's buffer at its block and the output's at `out1_7` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg1

end
-- ==== Proof.KI.Run.lean ====
/-
  The whole program's run: @main is pallas_call 0, three stretches of host operations (the edge list with its self
  loops, the degree normalisation, the gather of the projected features along the edges and their scatter-add per
  destination node, the biases as rows), pallas_call 1, and one last host operation (the result as a vector). The
  contents of the TensorCore's unscoped buffers are followed from the launch to the return: `W0` as launched; `W1` after
  the first pallas_call (its output array at what its 20 write-backs leave, everything else as it was); `W2`, `W3`, `W4`
  after each host stretch; `W5` after the second pallas_call; `W6` at the return. No host operation and no pallas_call
  writes an argument, so each argument array ends as launched; the result buffer ends at `W6`'s contents, which the value
  modules read. Stated at any float instance.
-/
import proofs.«135737_j63393717289295_1_alg».proof.Proof.KI.Region0
import proofs.«135737_j63393717289295_1_alg».proof.Proof.KI.Region1
import proofs.«135737_j63393717289295_1_alg».proof.Proof.Gen.KernelIdeal.Regions

set_option maxRecDepth 16384

noncomputable section

namespace Cert.KernelIdeal.Whole

open Cert.KernelIdeal Cert.KernelIdeal.Gen Cert.KernelIdeal.Reg Cert.KernelIdeal.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- The same read at the TensorCore's references: what the first pallas_call's proof data take. -/
abbrev E0 : (c : Dev nD) → (b : Ref sig .tc) → Buf (Elt F) ((c : Thread nD τ).loc b) := fun c b => W0 m c b
/-- After the first pallas_call: its arrays at what the pipeline leaves, every other buffer as launched. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev X1 : (c : Dev nD) → (b : Ref sig .tc) → Buf (Elt F) ((c : Thread nD τ).loc b) := fun c b => W1 m c b
theorem hF0 (c : Dev nD) (w : Fin cfg0.W) : (dat0 (E0 m) c).arrAt w cfg0.N = X1 m c (Pipeline.arrRef spec0 w) :=
  (W1_arr m c w).symm
theorem hrest0 (c : Dev nD) : ∀ b, b ∉ Finset.univ.image (Pipeline.arrRef spec0) → X1 m c b = E0 m c b :=
  fun b hb => W1_of_ne m c b fun w e => hb (Finset.mem_image.mpr ⟨w, Finset.mem_univ _, e⟩)

/-- After the first host stretch (the edge list, the degrees, their inverse square roots). -/
abbrev W2 : Dev nD → Valuation τ sig (Elt F) := fun c => StableHlo.after hostOps1 (W1 m c)
/-- After the second (the inverse square roots where the degree is positive, zero elsewhere). -/
abbrev W3 : Dev nD → Valuation τ sig (Elt F) := fun c => StableHlo.after hostOps1_1 (W2 m c)
/-- After the third (the edge weights, the gathered rows scaled and added per destination node, the biases as rows):
    the second pallas_call's entry. -/
abbrev W4 : Dev nD → Valuation τ sig (Elt F) := fun c => StableHlo.after hostOps1_2 (W3 m c)
abbrev E4 : (c : Dev nD) → (b : Ref sig .tc) → Buf (Elt F) ((c : Thread nD τ).loc b) := fun c b => W4 m c b
/-- After the second pallas_call: its arrays at what the pipeline leaves, every other buffer as entered. -/
def W5 (c : Dev nD) : Valuation τ sig (Elt F) :=
  Pipeline.withArrays spec1 c (W4 m c) fun w => (dat1 (E4 m) c).arrAt w cfg1.N
theorem W5_arr (c : Dev nD) (w : Fin cfg1.W) :
    W5 m c (Proc.devRef .tc (Pipeline.arrRef spec1 w)) = (dat1 (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev X5 : (c : Dev nD) → (b : Ref sig .tc) → Buf (Elt F) ((c : Thread nD τ).loc b) := fun c b => W5 m c b
theorem hF1 (c : Dev nD) (w : Fin cfg1.W) : (dat1 (E4 m) c).arrAt w cfg1.N = X5 m c (Pipeline.arrRef spec1 w) :=
  (W5_arr m c w).symm
theorem hrest1 (c : Dev nD) : ∀ b, b ∉ Finset.univ.image (Pipeline.arrRef spec1) → X5 m c b = E4 m c b :=
  fun b hb => W5_of_ne m c b fun w e => hb (Finset.mem_image.mpr ⟨w, Finset.mem_univ _, e⟩)
/-- At the return: after the last host operation (the 100000 × 1 result as a vector). -/
abbrev W6 : Dev nD → Valuation τ sig (Elt F) := fun c => StableHlo.after hostOps2 (W5 m c)

/-! ## The arguments end as launched: no host operation writes one, and a pallas_call reads it through an input window
    or does not touch it -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := (W5_arr m c 0).trans (((dat1 (E4 m) c).arrAt_in 0 rfl _).trans (A_eq1 (E4 m) c 0))
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := (W1_arr m c 0).trans (((dat0 (E0 m) c).arrAt_in 0 rfl _).trans (A_eq0 (E0 m) c 0))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := (W1_arr m c 1).trans (((dat0 (E0 m) c).arrAt_in 1 rfl _).trans (A_eq0 (E0 m) c 1))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1_2 _ hostOps1_2_writes (by decide)
    _ = W2 m c (Proc.devRef .tc main_arg3) := StableHlo.after_of_writes_sub hostOps1_1 _ hostOps1_1_writes (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2 _ hostOps2_writes (by decide)
    _ = W4 m c (Proc.devRef .tc main_arg4) := (W5_arr m c 3).trans (((dat1 (E4 m) c).arrAt_in 3 rfl _).trans (A_eq1 (E4 m) c 3))
    _ = W3 m c (Proc.devRef .tc main_arg4) := StableHlo.after_of_writes_sub hostOps1_2 _ hostOps1_2_writes (by decide)
    _ = W2 m c (Proc.devRef .tc main_arg4) := StableHlo.after_of_writes_sub hostOps1_1 _ hostOps1_1_writes (by decide)
    _ = W1 m c (Proc.devRef .tc main_arg4) := StableHlo.after_of_writes_sub hostOps1 _ hostOps1_writes (by decide)
    _ = W0 m c (Proc.devRef .tc main_arg4) := W1_of_ne m c main_arg4 (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2 _ hostOps2_writes (by decide)
    _ = W4 m c (Proc.devRef .tc main_arg5) := W5_of_ne m c main_arg5 (by decide)
    _ = W3 m c (Proc.devRef .tc main_arg5) := StableHlo.after_of_writes_sub hostOps1_2 _ hostOps1_2_writes (by decide)
    _ = W2 m c (Proc.devRef .tc main_arg5) := StableHlo.after_of_writes_sub hostOps1_1 _ hostOps1_1_writes (by decide)
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2 _ hostOps2_writes (by decide)
    _ = W4 m c (Proc.devRef .tc main_arg6) := (W5_arr m c 5).trans (((dat1 (E4 m) c).arrAt_in 5 rfl _).trans (A_eq1 (E4 m) c 5))
    _ = W3 m c (Proc.devRef .tc main_arg6) := StableHlo.after_of_writes_sub hostOps1_2 _ hostOps1_2_writes (by decide)
    _ = W2 m c (Proc.devRef .tc main_arg6) := StableHlo.after_of_writes_sub hostOps1_1 _ hostOps1_1_writes (by decide)
    _ = W1 m c (Proc.devRef .tc main_arg6) := StableHlo.after_of_writes_sub hostOps1 _ hostOps1_writes (by decide)
    _ = W0 m c (Proc.devRef .tc main_arg6) := W1_of_ne m c main_arg6 (by decide)
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps2 _ hostOps2_writes (by decide)
    _ = W4 m c (Proc.devRef .tc main_arg7) := W5_of_ne m c main_arg7 (by decide)
    _ = W3 m c (Proc.devRef .tc main_arg7) := StableHlo.after_of_writes_sub hostOps1_2 _ hostOps1_2_writes (by decide)
    _ = W2 m c (Proc.devRef .tc main_arg7) := StableHlo.after_of_writes_sub hostOps1_1 _ hostOps1_1_writes (by decide)
    _ = W1 m c (Proc.devRef .tc main_arg7) := StableHlo.after_of_writes_sub hostOps1 _ hostOps1_writes (by decide)
    _ = W0 m c (Proc.devRef .tc main_arg7) := W1_of_ne m c main_arg7 (by decide)
    _ = m ((c : Thread nD τ).loc main_arg7) := rfl

/-! ## The proof data family and the thread state -/

/-- Both pipelines' proof data, each at its own entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents, the generator register. -/
abbrev Tₙ (c : Dev nD) : sProp 𝕄 := iprop(StableHlo.held (c : Thread nD τ) (Pipeline.ucRefs τ sig) (W6 m c) ∗ ∃ r, prngReg c r)

/-! ## The pallas_calls as segments -/

-- a library lemma stated over the pinned configuration unifies with the printed one only when unification may unfold plain
-- definitions in a metavariable's type
set_option backward.isDefEq.respectTransparency.types false in
/-- Pallas_call 0 over the thread state: entered with every unscoped buffer at `W0`, left with them at `W1`. Its
    arrays are split out of the unscoped buffers and put back at what the write-backs leave; the generator register goes
    into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas_call 1 over the thread state: entered with every unscoped buffer at `W4`, left with them at `W5`. Its
    arrays are split out of the unscoped buffers and put back at what the write-backs leave; the generator register goes
    into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (X5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

/-- @main is the run of the segments. -/
theorem main_run (c : Dev nD) : main (F := F) c = Pipeline.Seg.run (segs m) := by
  rw [main_chain c, Pipeline.Seg.run_eq_chain,
    show (segs m).map Pipeline.Seg.prog = [
      Prog.lift (.customCall (Pipeline.entry 0) ()),
      StableHlo.seq hostOps1,
      StableHlo.seq hostOps1_1,
      StableHlo.seq hostOps1_2,
      Prog.lift (.customCall (Pipeline.entry 1) ()),
      StableHlo.seq hostOps2 ] from rfl]

-- the launch theorem's implicit arguments are found by unifying its conclusion with this one, which takes unfolding plain
-- definitions in a metavariable's type
set_option backward.isDefEq.respectTransparency.types false in
/-- THE RUN. From any memory with zero counters every weakly fair execution of @main on the TensorCores terminates,
    nothing faulting, and every final state has the result buffer at the return's contents `W6` and every argument array
    as launched. -/
theorem run (ρ : Dev nD → PrngReg) : θ_run defs (onTc (τ := τ) (main (F := F))) ⟨m, fun _ => 0, ρ⟩ (fun r => ∀ c : Dev nD,
      r.2.mem ((c.tc : Thread nD τ).loc main_v51) = W6 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show (iprop(StableHlo.held (c : Thread nD τ) (Pipeline.ucRefs τ sig) (W6 m c) ∗ (∃ r, prngReg c r) ∗ ∃ W, owes (c : Thread nD τ) (0 : CellTallies nD τ sig Unit) W) : sProp 𝕄)
          ⊢ iprop((StableHlo.held (c : Thread nD τ) (Pipeline.ucRefs τ sig) (W6 m c) ∗ ∃ r, prngReg c r) ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v51 (by decide)),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c),
       (h c _ (mem_uc main_arg7 (by decide))).trans (W6_main_arg7 m c)⟩)

/-- The frame: the run with the result forgotten. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run m ρ)

end Cert.KernelIdeal.Whole

end
-- ==== Proof.LibNary3.lean ====
/-
  A host operation over a LITERAL family of three references (a concatenation of three operands) read back with each
  operand's contents at its own reference, so that the operands' own results can be read in turn: the general result
  lemma leaves the operands under a binder, `fun k => F (![x, a, b] k)`, where no reference is a literal; here the
  family is spelt `Fin.cons (F x) (Fin.cons (F a) (Fin.cons (F b) _))`, which is the same function (the three cases
  of `k`). The library states this for four references; this is the same statement for three.
-/
import Idealize.ShloMosaic.Lib.StableHlo.Run

noncomputable section

namespace Idealize.ShloMosaic.StableHlo

variable {nD : Nat} {τ : Topo} {sig : RefSig} {Val : EltTy → Type}
variable {x a b y : Ref sig .tc}

/-- `nary` over a literal family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for use as a `simp` lemma. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.RefMid.lean ====
/-
  The aggregated messages as ONE function of the projected features and the edge list. Both programs compute them with
  the same host operations: the edge list is extended by two rounds of self loops; each edge (s, d) is weighted by
  dinv[s] · dinv[d], where dinv is the inverse square root of the destination degree (zero where the degree is not
  positive); row s of the projected features, scaled by the edge's weight, is added into row d. Only the projected
  features differ in origin (a pallas_call's output array in the kernel's program, a host matrix product in the
  reference), so they are the parameter `xw`; everything that depends on the edge list alone is taken, stage by stage,
  from the reference read one operation at a time.
-/
import proofs.«135737_j63393717289295_1_alg».proof.Proof.RefReadP

noncomputable section

namespace Cert.ReferenceIdeal.Mid

open Cert.ReferenceIdeal Cert.ReferenceIdeal.Gen Cert.ReferenceIdeal.ReadP Idealize.ShloMosaic

variable {F : FTy → Type} [FloatOps F]

/-- The aggregated messages: for every edge, the source's row of `xw` times the edge's weight, added into the
    destination's row of a zero array. -/
def conv (xw : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1800000x1_S1800000x128_1_0_0_1 (val_main_v44 (F := F)) (val_main_v45 (F := F) x1)
    (mulf (Host.gather gather_S100000x128_S1800000x1_S1800000x128_1_0_n_n_0_1_1128 xw (val_main_v39 (F := F) x1)) (val_main_v42 (F := F) x1))

/-- The reference's aggregated messages are `conv` of its own projected features. -/
theorem conv_ref (x0 : (⟨S100000x128, .f32⟩ : BufTy).Contents (Elt F)) (x1 : (⟨S2x1600000, .i32⟩ : BufTy).Contents (Elt F))
    (x2 : (⟨S128x128, .f32⟩ : BufTy).Contents (Elt F)) :
    val_main_v46 (F := F) x0 x1 x2 = conv (val_main_v33 (F := F) x0 x2) x1 := rfl

end Cert.ReferenceIdeal.Mid

end
-- ==== Proof.KI.Host.lean ====
/-
  What the host operations of the kernel's program compute, read off the run's boundary contents (at any float instance):
  at the second pallas_call's entry the node features and the two weight matrices are still the arguments, the three
  biases are the arguments as rows, and the aggregated messages are the function `conv` (shared with the reference) of the
  first pallas_call's output array and the edge list; at the return the result is the second pallas_call's output array
  as a vector.
-/
import proofs.«135737_j63393717289295_1_alg».proof.Proof.KI.Run
import proofs.«135737_j63393717289295_1_alg».proof.Proof.LibNary3
import proofs.«135737_j63393717289295_1_alg».proof.Proof.RefMid

set_option maxRecDepth 16384

noncomputable section

namespace Cert.KernelIdeal.HostK

open Cert.KernelIdeal Cert.KernelIdeal.Gen Cert.KernelIdeal.Reg Cert.KernelIdeal.Reg1 Cert.KernelIdeal.Whole
open Idealize.ShloMosaic Idealize.ShloMosaic.TcCoe Idealize.ShloMosaic.StableHlo
open Idealize.SL.Sem

variable {F : FTy → Type} [FloatOps F]
variable (m : (ℓ : Loc nD τ sig) → Buf (Elt F) ℓ)

/-! ## Buffers no pallas_call and no host operation before the second pallas_call writes -/

/-- From the second pallas_call's entry back to the launch, for a buffer nothing writes on the way. -/
theorem W4_of_launch (c : Dev nD) (b : Ref sig .tc) (h2 : b ∉ hostOps1_2_W) (h1 : b ∉ hostOps1_1_W) (h0 : b ∉ hostOps1_W)
    (hr : ∀ w, Pipeline.arrRef spec0 w = b → (cfg0.win w).isOut = false) :
    W4 m c (Proc.devRef .tc b) = W0 m c (Proc.devRef .tc b) :=
  calc W4 m c (Proc.devRef .tc b)
    _ = W3 m c (Proc.devRef .tc b) := StableHlo.after_of_writes_sub hostOps1_2 _ hostOps1_2_writes h2
    _ = W2 m c (Proc.devRef .tc b) := StableHlo.after_of_writes_sub hostOps1_1 _ hostOps1_1_writes h1
    _ = W1 m c (Proc.devRef .tc b) := StableHlo.after_of_writes_sub hostOps1 _ hostOps1_writes h0
    _ = W0 m c (Proc.devRef .tc b) := by
        by_cases hb : ∃ w, Pipeline.arrRef spec0 w = b
        · obtain ⟨w, rfl⟩ := hb
          exact (W1_arr m c w).trans (((dat0 (E0 m) c).arrAt_in w (hr w rfl) _).trans (A_eq0 (E0 m) c w))
        · exact W1_of_ne m c b fun w e => hb ⟨w, e⟩

theorem W4_arg0 (c : Dev nD) : W4 m c (Proc.devRef .tc main_arg0) = m ((c : Thread nD τ).loc main_arg0) :=
  W4_of_launch m c main_arg0 (by decide) (by decide) (by decide) (by decide)
theorem W4_arg4 (c : Dev nD) : W4 m c (Proc.devRef .tc main_arg4) = m ((c : Thread nD τ).loc main_arg4) :=
  W4_of_launch m c main_arg4 (by decide) (by decide) (by decide) (by decide)
theorem W4_arg6 (c : Dev nD) : W4 m c (Proc.devRef .tc main_arg6) = m ((c : Thread nD τ).loc main_arg6) :=
  W4_of_launch m c main_arg6 (by decide) (by decide) (by decide) (by decide)
theorem W1_arg1 (c : Dev nD) : W1 m c (Proc.devRef .tc main_arg1) = m ((c : Thread nD τ).loc main_arg1) :=
  W1_of_ne m c main_arg1 (by decide)
theorem W1_arg3 (c : Dev nD) : W1 m c (Proc.devRef .tc main_arg3) = m ((c : Thread nD τ).loc main_arg3) :=
  W1_of_ne m c main_arg3 (by decide)
theorem W1_arg5 (c : Dev nD) : W1 m c (Proc.devRef .tc main_arg5) = m ((c : Thread nD τ).loc main_arg5) :=
  W1_of_ne m c main_arg5 (by decide)
theorem W1_arg7 (c : Dev nD) : W1 m c (Proc.devRef .tc main_arg7) = m ((c : Thread nD τ).loc main_arg7) :=
  W1_of_ne m c main_arg7 (by decide)

/-! ## The biases as rows -/

/-- The convolution bias at the second pallas_call's entry: the argument vector as a 1 × 128 row. -/
theorem W4_bconv (c : Dev nD) :
    W4 m c (Proc.devRef .tc main_v47) = shapeCast S1x128 (m ((c : Thread nD τ).loc main_arg3)) shapeCasts_S128_S1x128 := by
  show StableHlo.after hostOps1_2 (StableHlo.after hostOps1_1 (StableHlo.after hostOps1 (W1 m c))) (Proc.devRef .tc main_v47) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W1_arg3]; rfl
/-- The projection bias as a row. -/
theorem W4_bproj (c : Dev nD) :
    W4 m c (Proc.devRef .tc main_v48) = shapeCast S1x128 (m ((c : Thread nD τ).loc main_arg5)) shapeCasts_S128_S1x128 := by
  show StableHlo.after hostOps1_2 (StableHlo.after hostOps1_1 (StableHlo.after hostOps1 (W1 m c))) (Proc.devRef .tc main_v48) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W1_arg5]; rfl
/-- The output bias as a 1 × 1 array. -/
theorem W4_bout (c : Dev nD) :
    W4 m c (Proc.devRef .tc main_v49) = shapeCast S1x1 (m ((c : Thread nD τ).loc main_arg7)) shapeCasts_S1_S1x1 := by
  show StableHlo.after hostOps1_2 (StableHlo.after hostOps1_1 (StableHlo.after hostOps1 (W1 m c))) (Proc.devRef .tc main_v49) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rw [W1_arg7]; rfl

/-! ## The aggregated messages -/

set_option maxHeartbeats 4000000 in
/-- The aggregated messages at the second pallas_call's entry, over the buffers as the first pallas_call left them: the
    host operations between the two pallas_calls are the reference's, one for one. -/
theorem W4_conv_at (c : Dev nD) :
    W4 m c (Proc.devRef .tc main_v46)
      = Cert.ReferenceIdeal.Mid.conv (F := F) (W1 m c (Proc.devRef .tc main_v0)) (W1 m c (Proc.devRef .tc main_arg1)) := by
  show StableHlo.after hostOps1_2 (StableHlo.after hostOps1_1 (StableHlo.after hostOps1 (W1 m c))) (Proc.devRef .tc main_v46) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rfl

/-- The same with the edge list read back to the launch: the first pallas_call does not touch it. -/
theorem W4_conv (c : Dev nD) :
    W4 m c (Proc.devRef .tc main_v46)
      = Cert.ReferenceIdeal.Mid.conv (F := F) (W1 m c (Proc.devRef .tc main_v0)) (m ((c : Thread nD τ).loc main_arg1)) :=
  (W4_conv_at m c).trans (congrArg (Cert.ReferenceIdeal.Mid.conv (F := F) (W1 m c (Proc.devRef .tc main_v0))) (W1_arg1 m c))

/-! ## The result -/

/-- The result at the return: the second pallas_call's output array as a vector. -/
theorem W6_out (c : Dev nD) :
    W6 m c (Proc.devRef .tc main_v51) = shapeCast S100000 (W5 m c (Proc.devRef .tc main_v50)) shapeCasts_S100000x1_S100000 := by
  show StableHlo.after hostOps2 (W5 m c) (Proc.devRef .tc main_v51) = _
  simp (disch := decide) only [after_cons, after_nil, nullary_result', unary_result', binary_result', ternary_result', quaternary_result', reshape_result', nary3_result', unaryIndexed_result', binaryIndexed_result', nullary_result_ne', unary_result_ne', binary_result_ne', ternary_result_ne', quaternary_result_ne', reshape_result_ne', nary_result_ne', unaryIndexed_result_ne', binaryIndexed_result_ne']
  rfl

end Cert.KernelIdeal.HostK

end
-- ==== Proof.Spec.lean ====
/-
  What the two programs compute, index by index, at the ideal instance (floats are extended reals, every operation exact),
  over the literal shapes: 100000 nodes, 128 features, 128 hidden units, one output per node.

  * `rowDot x w r j` is entry (r, j) of the product of the node features with a weight matrix: the sum over the 128
    features `k` of `x[r, k] · w[k, j]`.
  * `xwSpec x w` is that product as a whole array.
  * `headEntry x conv bc wp bp wo bo r` is node `r`'s output given the aggregated messages `conv`: over the 128 hidden units
    `k`, the sum of `max (((conv[r, k] + bc[k]) + (x · wp)[r, k]) + bp[k]) 0 · wo[k]`, plus the output bias. The additions
    are taken in this order on both sides, so no law of the extended reals is needed to join them.
-/
import Idealize.ShloMosaic.PureOps.Ideal
import Idealize.ShloMosaic.Lib.ValueIdx

noncomputable section

namespace Cert.Spec

open Idealize.ShloMosaic Idealize.ShloMosaic.ValueIdx

/-- A rank-2 array of extended reals of the given extents. -/
abbrev Arr (n0 n1 : Nat) : Type := (⟨2, ![n0, n1]⟩ : Shape).Idx → EReal

/-- Entry (r, j) of the product of the node features with a weight matrix. -/
def rowDot {n : Nat} (x : Arr 100000 128) (w : Arr 128 n) (r : Fin 100000) (j : Fin n) : EReal :=
  ∑ k : Fin 128, x (ix2 r k) * w (ix2 k j)

/-- The product of the node features with a 128 × 128 weight matrix, as a whole array. -/
def xwSpec (x : Arr 100000 128) (w : Arr 128 128) : Arr 100000 128 :=
  fun j => rowDot x w (j 0) (j 1)

theorem xwSpec_apply (x : Arr 100000 128) (w : Arr 128 128) (r : Fin 100000) (j : Fin 128) :
    xwSpec x w (ix2 r j) = rowDot x w r j := rfl

/-- The zero the hidden units are clamped at: the f32 word of +0. -/
abbrev zero : EReal := (Scalar.ofBits (F := Ideal) .f32 0x00000000#32 : Ideal .f32)

/-- Hidden unit `k` of node `r` before the output head: the aggregated message plus the convolution bias, plus the
    projected features, plus the projection bias, clamped below at zero. -/
def hidden (x conv : Arr 100000 128) (bc : Arr 1 128) (wp : Arr 128 128) (bp : Arr 1 128) (r : Fin 100000) (k : Fin 128) : EReal :=
  FloatOps.maximumf (F := Ideal) (φ := .f32)
    (FloatOps.addf (F := Ideal) (φ := .f32) (FloatOps.addf (F := Ideal) (φ := .f32) (FloatOps.addf (F := Ideal) (φ := .f32) (conv (ix2 r k)) (bc (ix2 0 k))) (rowDot x wp r k)) (bp (ix2 0 k)))
    zero

/-- Node `r`'s output: the hidden units against the output-head weights, plus the output bias. -/
def headEntry (x conv : Arr 100000 128) (bc : Arr 1 128) (wp : Arr 128 128) (bp : Arr 1 128) (wo : Arr 128 1) (bo : Arr 1 1)
    (r : Fin 100000) : EReal :=
  FloatOps.addf (F := Ideal) (φ := .f32) (∑ k : Fin 128, hidden x conv bc wp bp r k * wo (ix2 k 0)) (bo (ix2 0 0))

/-- The outputs of all nodes, as a 100000 × 1 array. -/
def headSpec (x conv : Arr 100000 128) (bc : Arr 1 128) (wp : Arr 128 128) (bp : Arr 1 128) (wo : Arr 128 1) (bo : Arr 1 1) : Arr 100000 1 :=
  fun j => headEntry x conv bc wp bp wo bo (j 0)

theorem headSpec_apply (x conv : Arr 100000 128) (bc : Arr 1 128) (wp : Arr 128 128) (bp : Arr 1 128) (wo : Arr 128 1) (bo : Arr 1 1)
    (r : Fin 100000) : headSpec x conv bc wp bp wo bo (ix2 r 0) = headEntry x conv bc wp bp wo bo r := rfl

end Cert.Spec

end
-- ==== Proof.KI.Value0.lean ====
/-
  The first pallas_call's output array at the ideal instance: after the 20 grid points have written their row blocks back,
  the whole 100000 × 128 array holds the product of the node features with the convolution weights, entry (r, j) the sum
  over the 128 features k of x[r, k] · w[k, j] — point t writes rows 5000 t … 5000 t + 4999, and the blocks tile the rows.
-/
import proofs.«135737_j63393717289295_1_alg».proof.Proof.KI.Region0
import proofs.«135737_j63393717289295_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-! ## The body's arithmetic at an index -/

/-- Which entries of its operands the block product reads at output index `i` and contraction index `q`: row `i 0` of the
    left operand against column `i 1` of the right one, both at the contraction coordinate. -/
theorem lhs0_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of what the body stores: the narrowing of the operands is the identity on extended reals and the product
    accumulates into the zero splat, so it is the sum over the 128 features `k` of `x0[p, k] · x1[k, q]`. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-- A block's entry from the arrays' entries: when row `J 0` of the feature block is row `I 0` of the features and column
    `J 1` of the weight block is column `I 1` of the weights, entry `J` of the body's product is entry `I` of the whole product. -/
theorem block_entry (x : Cert.Spec.Arr 100000 128) (w : Cert.Spec.Arr 128 128)
    (x0 : Vec Ideal S5000x128 .f32) (x1 : Vec Ideal S128x128 .f32) (J : S5000x128.Idx) (I : S100000x128.Idx)
    (h0 : ∀ k : Fin 128, x0 (ix2 (J 0) k) = x (ix2 (I 0) k))
    (h1 : ∀ k : Fin 128, x1 (ix2 k (J 1)) = w (ix2 k (I 1))) :
    k0_pay1 (F := Ideal) x0 x1 J = Cert.Spec.xwSpec x w I := by
  obtain ⟨p, q, rfl⟩ : ∃ p q, J = ix2 p q := ⟨J 0, J 1, eq_ix2 J⟩
  rw [pay0_apply]
  show _ = ∑ k : Fin 128, x (ix2 (I 0) k) * w (ix2 k (I 1))
  exact Finset.sum_congr rfl fun k _ => congrArg₂ (· * ·) (h0 k) (h1 k)

/-! ## From the blocks to the array -/

theorem hz0 : (![0, 0] : Fin 2 → Nat) = fun _ => 0 := funext fun a => by fin_cases a <;> rfl

/-- The windows' block indices, decided over the 20 points: the feature and output windows are at row block `t`, column
    block 0; the weight window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the features with the weights, as the region finds them. -/
theorem flushed0_eq (c : Dev nD) (t : Fin cfg0.N) :
    (dat0 (F := Ideal) V c).flushed 2 t
      = ((cfg0.win 2).blk t).view.read (Elt Ideal) (Cert.Spec.xwSpec (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx_facts0 t
  funext j
  show k0_pay1 (F := Ideal) (iblk0 V c 0 t) (iblk0 V c 1 t) ((cfg0.win 2).xinj (grid0.coords t) j)
    = Cert.Spec.xwSpec (V c main_arg0) (V c main_arg2) (((cfg0.win 2).blk t).view.emb j)
  refine block_entry _ _ _ _ _ _ (fun k => ?_) (fun k => ?_)
  · show V c main_arg0 (((cfg0.win 0).blk t).view.emb (ix2 ⟨(j 0).val, (j 0).isLt⟩ k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  · show V c main_arg2 (((cfg0.win 1).blk t).view.emb (ix2 k ⟨(j 1).val, (j 1).isLt⟩)) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 128 + 1 * (j 1).val = win0_2.index t (1 : Fin 2) * 128 + 1 * (j 1).val; rw [e3, e5]

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The 20 row blocks tile the array: row `r` is in the block of point `r / 5000`, and every point writes its block back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e4, e5⟩ := idx_facts0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- After the region the output array is the product of the features (as the region found them) with the weights. -/
theorem arr0 (c : Dev nD) :
    ((dat0 (F := Ideal) V c).arrAt 2 cfg0.N : S100000x128.Idx → EReal)
      = Cert.Spec.xwSpec (V c main_arg0) (V c main_arg2) :=
  (dat0 (F := Ideal) V c).arrAt_eq_of_cover 2 (Cert.Spec.xwSpec (V c main_arg0) (V c main_arg2))
    (fun t _ => flushed0_eq V c t) cover0

end Cert.KernelIdeal.Reg

end
-- ==== Proof.KI.Value1.lean ====
/-
  The second pallas_call's output array at the ideal instance: after the 20 grid points have written their row blocks back,
  the whole 100000 × 1 array holds every node's output — the hidden units (aggregated message plus convolution bias, plus
  projected features, plus projection bias, clamped below at zero) against the output-head weights, plus the output bias.
  Point t writes rows 5000 t … 5000 t + 4999, and the blocks tile the rows.

  The steps: the two products read at an index as sums over the 128-long contraction; the body's arithmetic at row p of a
  block (casts to the same shape and changes of float format are the identity, the bias rows are read at their column);
  row p of the block at point t against row 5000 t + p of the specification, whose additions are in the body's order;
  the windows' block indices over the grid; each input block read off its array; what a point writes back; the cover.
-/
import proofs.«135737_j63393717289295_1_alg».proof.Proof.KI.Region1
import proofs.«135737_j63393717289295_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the ideal instance
variable (V : (c : Dev nD) → (b : Ref sig .tc) → Buf (Elt Ideal) ((c : Thread nD τ).loc b))

/-! ## The two products at an index

Each product's contraction runs over one axis of 128: the left operand's axis 1 against the right operand's axis 0. At
output index `i` and contraction index `q` the left operand is read at `(i 0, q)` and the right one at `(q, i 1)`. -/

/-- Projection product, left operand, axis 0: the output's row. -/
theorem projL_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Projection product, left operand, axis 1: the contraction index. -/
theorem projL_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Projection product, right operand, axis 0: the contraction index. -/
theorem projR_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Projection product, right operand, axis 1: the output's column. -/
theorem projR_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The projection product into the zero splat, at row `p` and hidden unit `k`: the sum over the 128 features. -/
theorem proj_apply (a : FVec Ideal S5000x128 .bf16) (w : FVec Ideal S128x128 .bf16) (p : Fin 5000) (k : Fin 128) :
    FloatOps.matmul dot_S5000x128_S128x128_S5000x128_1_0_0_1_n_n none a w (constant (F := Ideal) S5000x128 .f32 0x00000000#32) (ix2 p k)
      = ∑ l : Fin 128, a (ix2 p l) * w (ix2 l k) := by
  rw [Ideal.matmul_constant_zero_apply, ← Equiv.sum_comp (ValueIdx.contrEquiv1 dot_S5000x128_S128x128_S5000x128_1_0_0_1_n_n 128 rfl rfl).symm]
  refine Finset.sum_congr rfl fun l _ => ?_
  have hl := ValueIdx.contrEquiv1_symm_val dot_S5000x128_S128x128_S5000x128_1_0_0_1_n_n 128 rfl rfl l
  have el : dot_S5000x128_S128x128_S5000x128_1_0_0_1_n_n.lhsIdx (ix2 p k) ((ValueIdx.contrEquiv1 dot_S5000x128_S128x128_S5000x128_1_0_0_1_n_n 128 rfl rfl).symm l) = ix2 p l := funext fun ax => Fin.ext (by
    match ax with
    | ⟨0, _⟩ => exact projL_0 _ _
    | ⟨1, _⟩ => exact (projL_1 _ _).trans hl)
  have er : dot_S5000x128_S128x128_S5000x128_1_0_0_1_n_n.rhsIdx (ix2 p k) ((ValueIdx.contrEquiv1 dot_S5000x128_S128x128_S5000x128_1_0_0_1_n_n 128 rfl rfl).symm l) = ix2 l k := funext fun ax => Fin.ext (by
    match ax with
    | ⟨0, _⟩ => exact (projR_0 _ _).trans hl
    | ⟨1, _⟩ => exact projR_1 _ _)
  rw [el, er]

/-- Output-head product, left operand, axis 0: the output's row. -/
theorem headL_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- Output-head product, left operand, axis 1: the contraction index. -/
theorem headL_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- Output-head product, right operand, axis 0: the contraction index. -/
theorem headR_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- Output-head product, right operand, axis 1: the output's one column. -/
theorem headR_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The output-head product into the zero splat, at row `p`: the sum over the 128 hidden units. -/
theorem head_apply (a : FVec Ideal S5000x128 .bf16) (w : FVec Ideal S128x1 .bf16) (p : Fin 5000) :
    FloatOps.matmul dot_S5000x128_S128x1_S5000x1_1_0_0_1_n_n none a w (constant (F := Ideal) S5000x1 .f32 0x00000000#32) (ix2 p (0 : Fin 1))
      = ∑ k : Fin 128, a (ix2 p k) * w (ix2 k (0 : Fin 1)) := by
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p (0 : Fin 1)) ((ValueIdx.contrEquiv1 dot_S5000x128_S128x1_S5000x1_1_0_0_1_n_n 128 rfl rfl).symm k) = ix2 p k := funext fun ax => Fin.ext (by
    match ax with
    | ⟨0, _⟩ => exact headL_0 _ _
    | ⟨1, _⟩ => exact (headL_1 _ _).trans hk)
  have er : dot_S5000x128_S128x1_S5000x1_1_0_0_1_n_n.rhsIdx (ix2 p (0 : Fin 1)) ((ValueIdx.contrEquiv1 dot_S5000x128_S128x1_S5000x1_1_0_0_1_n_n 128 rfl rfl).symm k) = ix2 k (0 : Fin 1) := funext fun ax => Fin.ext (by
    match ax with
    | ⟨0, _⟩ => exact (headR_0 _ _).trans hk
    | ⟨1, _⟩ => exact headR_1 _ _)
  rw [el, er]

/-! ## The body's arithmetic at a row of the block -/

/-- The hidden units of a block of 5000 nodes, as the body computes them from the loaded blocks: the aggregated messages
    plus the convolution bias row, plus the features times the projection weights, plus the projection bias row, clamped
    below at zero. -/
def hid (x0 x1 : Vec Ideal S5000x128 .f32) (x2 : Vec Ideal S1x128 .f32) (x3 : Vec Ideal S128x128 .f32)
    (x4 : Vec Ideal S1x128 .f32) : FVec Ideal S5000x128 .f32 :=
  maximumf
    (addf
      (addf
        (addf (shapeCast S5000x128 x1 shapeCasts_S5000x128_S5000x128)
          (broadcastTo S5000x128 (shapeCast S1x128 x2 shapeCasts_S1x128_S1x128) broadcasts_S1x128_S5000x128))
        (matmul dot_S5000x128_S128x128_S5000x128_1_0_0_1_n_n none (truncf .bf16 x0 bitsLt_bf16_f32) (truncf .bf16 x3 bitsLt_bf16_f32)
          (constant S5000x128 .f32 0x00000000#32)))
      (broadcastTo S5000x128 (shapeCast S1x128 x4 shapeCasts_S1x128_S1x128) broadcasts_S1x128_S5000x128))
    (broadcast S5000x128 (Scalar.ofBits .f32 0x00000000#32))

/-- Hidden unit `k` of row `p` of the block: the casts to the same shape are the identity, the bias rows are read at
    column `k`, the change of format is the identity on extended reals, the product is the sum over the features. -/
theorem hid_apply (x0 x1 : Vec Ideal S5000x128 .f32) (x2 : Vec Ideal S1x128 .f32) (x3 : Vec Ideal S128x128 .f32)
    (x4 : Vec Ideal S1x128 .f32) (p : Fin 5000) (k : Fin 128) :
    hid x0 x1 x2 x3 x4 (ix2 p k)
      = FloatOps.maximumf (F := Ideal) (φ := .f32)
          (FloatOps.addf (F := Ideal) (φ := .f32)
            (FloatOps.addf (F := Ideal) (φ := .f32)
              (FloatOps.addf (F := Ideal) (φ := .f32) (x1 (ix2 p k)) (x2 (ix2 (0 : Fin 1) k)))
              (∑ l : Fin 128, x0 (ix2 p l) * x3 (ix2 l k)))
            (x4 (ix2 (0 : Fin 1) k)))
          Cert.Spec.zero := by
  have e1 : shapeCast S5000x128 x1 shapeCasts_S5000x128_S5000x128 (ix2 p k) = x1 (ix2 p k) :=
    congrFun (shapeCast_self x1 _) _
  have e2 : broadcastTo S5000x128 (shapeCast S1x128 x2 shapeCasts_S1x128_S1x128) broadcasts_S1x128_S5000x128 (ix2 p k)
      = x2 (ix2 (0 : Fin 1) k) :=
    (broadcastTo_1b_ab_apply _ _ p k).trans (congrFun (shapeCast_self x2 _) _)
  have e3 : FloatOps.matmul dot_S5000x128_S128x128_S5000x128_1_0_0_1_n_n none (truncf .bf16 x0 bitsLt_bf16_f32) (truncf .bf16 x3 bitsLt_bf16_f32)
      (constant (F := Ideal) S5000x128 .f32 0x00000000#32) (ix2 p k) = ∑ l : Fin 128, x0 (ix2 p l) * x3 (ix2 l k) :=
    proj_apply (truncf .bf16 x0 bitsLt_bf16_f32) (truncf .bf16 x3 bitsLt_bf16_f32) p k
  have e4 : broadcastTo S5000x128 (shapeCast S1x128 x4 shapeCasts_S1x128_S1x128) broadcasts_S1x128_S5000x128 (ix2 p k)
      = x4 (ix2 (0 : Fin 1) k) :=
    (broadcastTo_1b_ab_apply _ _ p k).trans (congrFun (shapeCast_self x4 _) _)
  exact congrArg (fun z => FloatOps.maximumf (F := Ideal) (φ := .f32) z Cert.Spec.zero)
    (congrArg₂ (FloatOps.addf (F := Ideal) (φ := .f32))
      (congrArg₂ (FloatOps.addf (F := Ideal) (φ := .f32))
        (congrArg₂ (FloatOps.addf (F := Ideal) (φ := .f32)) e1 e2) e3) e4)

/-- Row `p` of what the body stores: over the hidden units `k`, the aggregated message plus the convolution bias, plus the
    row's features against column `k` of the projection weights, plus the projection bias, clamped below at zero, against
    the output-head weight `k`; plus the output bias. -/
theorem pay_apply (x0 x1 : Vec Ideal S5000x128 .f32) (x2 : Vec Ideal S1x128 .f32) (x3 : Vec Ideal S128x128 .f32)
    (x4 : Vec Ideal S1x128 .f32) (x5 : Vec Ideal S128x1 .f32) (x6 : Vec Ideal S1x1 .f32) (p : Fin 5000) :
    k1_pay1 (F := Ideal) x0 x1 x2 x3 x4 x5 x6 (ix2 p (0 : Fin 1))
      = FloatOps.addf (F := Ideal) (φ := .f32)
          (∑ k : Fin 128,
            FloatOps.maximumf (F := Ideal) (φ := .f32)
              (FloatOps.addf (F := Ideal) (φ := .f32)
                (FloatOps.addf (F := Ideal) (φ := .f32)
                  (FloatOps.addf (F := Ideal) (φ := .f32) (x1 (ix2 p k)) (x2 (ix2 (0 : Fin 1) k)))
                  (∑ l : Fin 128, x0 (ix2 p l) * x3 (ix2 l k)))
                (x4 (ix2 (0 : Fin 1) k)))
              Cert.Spec.zero
            * x5 (ix2 k (0 : Fin 1)))
          (x6 (ix2 (0 : Fin 1) (0 : Fin 1))) := by
  have e5 : FloatOps.matmul dot_S5000x128_S128x1_S5000x1_1_0_0_1_n_n none (truncf .bf16 (hid x0 x1 x2 x3 x4) bitsLt_bf16_f32) (truncf .bf16 x5 bitsLt_bf16_f32)
      (constant (F := Ideal) S5000x1 .f32 0x00000000#32) (ix2 p (0 : Fin 1))
      = ∑ k : Fin 128, hid x0 x1 x2 x3 x4 (ix2 p k) * x5 (ix2 k (0 : Fin 1)) :=
    head_apply (truncf .bf16 (hid x0 x1 x2 x3 x4) bitsLt_bf16_f32) (truncf .bf16 x5 bitsLt_bf16_f32) p
  have e6 : broadcastTo S5000x1 (shapeCast S1x1 x6 shapeCasts_S1x1_S1x1) broadcasts_S1x1_S5000x1 (ix2 p (0 : Fin 1))
      = x6 (ix2 (0 : Fin 1) (0 : Fin 1)) :=
    (broadcastTo_1b_ab_apply _ _ p (0 : Fin 1)).trans (congrFun (shapeCast_self x6 _) _)
  refine (congrArg₂ (FloatOps.addf (F := Ideal) (φ := .f32)) e5 e6).trans ?_
  refine congrArg (fun z => FloatOps.addf (F := Ideal) (φ := .f32) z (x6 (ix2 (0 : Fin 1) (0 : Fin 1))))
    (Finset.sum_congr rfl fun k _ => ?_)
  exact congrArg (· * x5 (ix2 k (0 : Fin 1))) (hid_apply x0 x1 x2 x3 x4 p k)

/-! ## From a block's row to the array's row -/

/-- Every load and the store of the body are at offset zero of a whole staging buffer. -/
theorem zeroOff : (![0, 0] : Fin 2 → Nat) = fun _ => 0 := funext fun a => by fin_cases a <;> rfl

/-- Row `p` of what the body stores at a point whose two row blocks are rows `n · 5000 …` of the features `a0` and of the
    aggregated messages `a1`, and whose small operands are the arrays `a2 … a6` whole, is the specification's row
    `n · 5000 + p`: the same additions in the same order, so the two sides meet by unfolding. -/
theorem pay_block (a0 a1 : Cert.Spec.Arr 100000 128) (a2 : Cert.Spec.Arr 1 128) (a3 : Cert.Spec.Arr 128 128)
    (a4 : Cert.Spec.Arr 1 128) (a5 : Cert.Spec.Arr 128 1) (a6 : Cert.Spec.Arr 1 1)
    (x0 x1 : Vec Ideal S5000x128 .f32) (x2 : Vec Ideal S1x128 .f32) (x3 : Vec Ideal S128x128 .f32)
    (x4 : Vec Ideal S1x128 .f32) (x5 : Vec Ideal S128x1 .f32) (x6 : Vec Ideal S1x1 .f32)
    (y : S5000x1.Idx) (i : S100000x1.Idx) (n : Nat)
    (hi : (i 0).val = n * 5000 + (y 0).val)
    (h0 : ∀ (p : Fin 5000) (l : Fin 128) (r : Fin 100000), r.val = n * 5000 + p.val → x0 (ix2 p l) = a0 (ix2 r l))
    (h1 : ∀ (p : Fin 5000) (l : Fin 128) (r : Fin 100000), r.val = n * 5000 + p.val → x1 (ix2 p l) = a1 (ix2 r l))
    (h2 : x2 = a2) (h3 : x3 = a3) (h4 : x4 = a4) (h5 : x5 = a5) (h6 : x6 = a6) :
    k1_pay1 (F := Ideal) x0 x1 x2 x3 x4 x5 x6 y = Cert.Spec.headSpec a0 a1 a2 a3 a4 a5 a6 i := by
  obtain ⟨p, q, rfl⟩ : ∃ (p : Fin 5000) (q : Fin 1), y = ix2 p q := ⟨y 0, y 1, eq_ix2 y⟩
  obtain rfl : q = 0 := Subsingleton.elim _ _
  obtain ⟨r, s, rfl⟩ : ∃ (r : Fin 100000) (s : Fin 1), i = ix2 r s := ⟨i 0, i 1, eq_ix2 i⟩
  have hr : r.val = n * 5000 + p.val := hi
  subst h2 h3 h4 h5 h6
  refine (pay_apply x0 x1 x2 x3 x4 x5 x6 p).trans ?_
  show _ = Cert.Spec.headEntry a0 a1 x2 x3 x4 x5 x6 r
  unfold Cert.Spec.headEntry Cert.Spec.hidden Cert.Spec.rowDot
  simp only [h0 p _ r hr, h1 p _ r hr]

/-! ## The windows' index maps over the grid -/

/-- The printed index maps, decided over the 20 points: the two row-blocked inputs and the output are at block `(t, 0)`,
    the five small operands at their one block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The input blocks, read off their arrays

A block's coordinate on an axis is the block index times the block's size plus the coordinate inside the block. -/

/-- The feature window's block at point `t` is rows `5000 t …` of the features. -/
theorem featBlk_apply (c : Dev nD) (t : Fin cfg1.N) (p : Fin 5000) (l : Fin 128) (r : Fin 100000)
    (hr : r.val = t.val * 5000 + p.val) :
    (iblk1 V c 0 t : Vec Ideal S5000x128 .f32) (ix2 p l) = (V c main_arg0 : S100000x128.Idx → EReal) (ix2 r l) := by
  obtain ⟨e00, e01, -⟩ := idx_facts t
  show (V c main_arg0 : S100000x128.Idx → EReal) (((cfg1.win 0).blk t).view.emb (ix2 p l)) = (V c main_arg0 : S100000x128.Idx → EReal) (ix2 r l)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * l.val = l.val; omega

/-- The aggregated-message window's block at point `t` is rows `5000 t …` of the aggregated messages. -/
theorem convBlk_apply (c : Dev nD) (t : Fin cfg1.N) (p : Fin 5000) (l : Fin 128) (r : Fin 100000)
    (hr : r.val = t.val * 5000 + p.val) :
    (iblk1 V c 1 t : Vec Ideal S5000x128 .f32) (ix2 p l) = (V c main_v46 : S100000x128.Idx → EReal) (ix2 r l) := by
  obtain ⟨-, -, e10, e11, -⟩ := idx_facts t
  show (V c main_v46 : S100000x128.Idx → EReal) (((cfg1.win 1).blk t).view.emb (ix2 p l)) = (V c main_v46 : S100000x128.Idx → EReal) (ix2 r l)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * l.val = l.val; omega

/-- The convolution bias window's one block is the bias row whole. -/
theorem convBias_eq (c : Dev nD) (t : Fin cfg1.N) :
    (iblk1 V c 2 t : Vec Ideal S1x128 .f32) = (V c main_v47 : S1x128.Idx → EReal) := by
  obtain ⟨-, -, -, -, e0, e1, -⟩ := idx_facts t
  funext y
  show (V c main_v47 : S1x128.Idx → EReal) (((cfg1.win 2).blk t).view.emb y) = (V c main_v47 : S1x128.Idx → EReal) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The projection weight window's one block is the weights whole. -/
theorem projW_eq (c : Dev nD) (t : Fin cfg1.N) :
    (iblk1 V c 3 t : Vec Ideal S128x128 .f32) = (V c main_arg4 : S128x128.Idx → EReal) := by
  obtain ⟨-, -, -, -, -, -, e0, e1, -⟩ := idx_facts t
  funext y
  show (V c main_arg4 : S128x128.Idx → EReal) (((cfg1.win 3).blk t).view.emb y) = (V c main_arg4 : S128x128.Idx → EReal) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The projection bias window's one block is the bias row whole. -/
theorem projBias_eq (c : Dev nD) (t : Fin cfg1.N) :
    (iblk1 V c 4 t : Vec Ideal S1x128 .f32) = (V c main_v48 : S1x128.Idx → EReal) := by
  obtain ⟨-, -, -, -, -, -, -, -, e0, e1, -⟩ := idx_facts t
  funext y
  show (V c main_v48 : S1x128.Idx → EReal) (((cfg1.win 4).blk t).view.emb y) = (V c main_v48 : S1x128.Idx → EReal) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The output-head weight window's one block is the weights whole. -/
theorem headW_eq (c : Dev nD) (t : Fin cfg1.N) :
    (iblk1 V c 5 t : Vec Ideal S128x1 .f32) = (V c main_arg6 : S128x1.Idx → EReal) := by
  obtain ⟨-, -, -, -, -, -, -, -, -, -, e0, e1, -⟩ := idx_facts t
  funext y
  show (V c main_arg6 : S128x1.Idx → EReal) (((cfg1.win 5).blk t).view.emb y) = (V c main_arg6 : S128x1.Idx → EReal) y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 1 + 1 * (y 1).val = (y 1).val; omega

/-- The output bias window's one block is the bias whole. -/
theorem headBias_eq (c : Dev nD) (t : Fin cfg1.N) :
    (iblk1 V c 6 t : Vec Ideal S1x1 .f32) = (V c main_v49 : S1x1.Idx → EReal) := by
  obtain ⟨-, -, -, -, -, -, -, -, -, -, -, -, e0, e1, -⟩ := idx_facts t
  funext y
  show (V c main_v49 : S1x1.Idx → EReal) (((cfg1.win 6).blk t).view.emb y) = (V c main_v49 : S1x1.Idx → EReal) y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

/-! ## What a point writes back, and the cover -/

/-- What point `t` writes back is block `t` of the specification of the arrays the region found: the body's store is the
    whole staging buffer, its loads are the input blocks whole, and row `p` of the block is node `5000 t + p`. -/
theorem flushed_eq (c : Dev nD) (t : Fin cfg1.N) :
    (dat1 (F := Ideal) V c).flushed 7 t
      = ((cfg1.win 7).blk t).view.read (Elt Ideal)
          (Cert.Spec.headSpec (V c main_arg0) (V c main_v46) (V c main_v47) (V c main_arg4) (V c main_v48) (V c main_arg6) (V c main_v49)) := by
  show (cfg1.win 7).cut (grid1.coords t) ((dat1 (F := Ideal) V c).after 7 t) = _
  rw [after1_7]
  unfold out1_7
  rw [View.canon_unit_zero zeroOff]
  simp only [View.ld_unit_zero (S := S5000x128) zeroOff, View.ld_unit_zero (S := S1x128) zeroOff,
    View.ld_unit_zero (S := S128x128) zeroOff, View.ld_unit_zero (S := S128x1) zeroOff, View.ld_unit_zero (S := S1x1) zeroOff]
  obtain ⟨-, -, -, -, -, -, -, -, -, -, -, -, -, -, e70, e71⟩ := idx_facts t
  funext j
  refine pay_block (V c main_arg0) (V c main_v46) (V c main_v47) (V c main_arg4) (V c main_v48) (V c main_arg6) (V c main_v49)
    (iblk1 V c 0 t) (iblk1 V c 1 t) (iblk1 V c 2 t) (iblk1 V c 3 t) (iblk1 V c 4 t) (iblk1 V c 5 t) (iblk1 V c 6 t)
    j (((cfg1.win 7).blk t).view.emb j) t.val ?_
    (fun p l r hr => featBlk_apply V c t p l r hr) (fun p l r hr => convBlk_apply V c t p l r hr)
    (convBias_eq V c t) (projW_eq V c t) (projBias_eq V c t) (headW_eq V c t) (headBias_eq V c t)
  show win1_7.index t (0 : Fin 2) * 5000 + 1 * (j 0).val = t.val * 5000 + (j 0).val
  omega

/-- An index of the output array is in point `t`'s block iff each coordinate is in the block's range on its axis. -/
theorem mem_blk (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v50).slice (win1_7.rect t)).set ↔ _
  rw [View.set_slice_whole, Rect.mem_set_unit]
  exact Iff.rfl

/-- The 20 blocks tile the rows: row `r` is in the block of point `r / 5000`. -/
theorem covered (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, -, -, -, -, -, e70, e71⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 1 ≤ (i 1).val ∧ (i 1).val < win1_7.index t (1 : Fin 2) * 1 + 1; omega

/-- After the region the output array holds every node's output, as a function of the arrays the region found. -/
theorem arr1 (c : Dev nD) :
    ((dat1 (F := Ideal) V c).arrAt 7 cfg1.N : S100000x1.Idx → EReal)
      = Cert.Spec.headSpec (V c main_arg0) (V c main_v46) (V c main_v47) (V c main_arg4) (V c main_v48) (V c main_arg6) (V c main_v49) :=
  (dat1 (F := Ideal) V c).arrAt_eq_of_cover 7
    (Cert.Spec.headSpec (V c main_arg0) (V c main_v46) (V c main_v47) (V c main_arg4) (V c main_v48) (V c main_arg6) (V c main_v49))
    (fun t _ => flushed_eq V c t) covered

end Cert.KernelIdeal.Reg1

end
-- ==== Proof.RefSpec.lean ====
/-
  The reference program's dense part, entry by entry, against the specification.

  * The projected features: the reference's first matrix product is the product array of the specification.
  * The head: over its own aggregated messages (kept opaque), the reference adds the convolution bias, adds the
    projected node features, adds the projection bias, clamps below at zero, contracts the 128 hidden units against the
    output-head weights, adds the output bias, and reshapes the 100000 × 1 result to a vector. The specification's
    `headEntry` takes the same additions in the same order, so the two sides are joined entry by entry by reading
    each operation at an index; no law of the extended reals is used.
-/
import proofs.«135737_j63393717289295_1_alg».proof.Proof.RefReadP
import proofs.«135737_j63393717289295_1_alg».proof.Proof.Spec
import Idealize.ShloMosaic.Lib.ValueIdx

noncomputable section

namespace Cert.ReferenceIdeal.RefSpec

open Cert.ReferenceIdeal Cert.ReferenceIdeal.ReadP Idealize.ShloMosaic Idealize.ShloMosaic.ValueIdx

/-! ## Index functions of the matrix products, at explicit coordinates -/

/-- Entry (r, j) of a product with a 128 × 128 matrix reads the left operand at (r, k) … -/
theorem lidx33 (r : Fin 100000) (j k : Fin 128) : lidx_main_v33 (ix2 r j) k = ix2 r k :=
  funext fun a => Fin.ext (by match a with | ⟨0, _⟩ => rfl | ⟨1, _⟩ => rfl)
/-- … and the right operand at (k, j). -/
theorem ridx33 (r : Fin 100000) (j k : Fin 128) : ridx_main_v33 (ix2 r j) k = ix2 k j :=
  funext fun a => Fin.ext (by match a with | ⟨0, _⟩ => rfl | ⟨1, _⟩ => rfl)
/-- The same for the projection product: left operand at (r, k) … -/
theorem lidx50 (r : Fin 100000) (j k : Fin 128) : lidx_main_v50 (ix2 r j) k = ix2 r k :=
  funext fun a => Fin.ext (by match a with | ⟨0, _⟩ => rfl | ⟨1, _⟩ => rfl)
/-- … right operand at (k, j). -/
theorem ridx50 (r : Fin 100000) (j k : Fin 128) : ridx_main_v50 (ix2 r j) k = ix2 k j :=
  funext fun a => Fin.ext (by match a with | ⟨0, _⟩ => rfl | ⟨1, _⟩ => rfl)
/-- Entry (r, 0) of the product with the 128 × 1 output-head weights reads the hidden units at (r, k) … -/
theorem lidx56 (r : Fin 100000) (k : Fin 128) : lidx_main_v56 (ix2 r (0 : Fin 1)) k = ix2 r k :=
  funext fun a => Fin.ext (by match a with | ⟨0, _⟩ => rfl | ⟨1, _⟩ => rfl)
/-- … and the weights at (k, 0). -/
theorem ridx56 (r : Fin 100000) (k : Fin 128) : ridx_main_v56 (ix2 r (0 : Fin 1)) k = ix2 k (0 : Fin 1) :=
  funext fun a => Fin.ext (by match a with | ⟨0, _⟩ => rfl | ⟨1, _⟩ => rfl)

/-! ## The projected features -/

/-- Entry (r, j) of the reference's first product is the specification's row-by-column sum. -/
theorem xw_entry (x0 : (⟨S100000x128, .f32⟩ : BufTy).Contents (Elt Ideal)) (x2 : (⟨S128x128, .f32⟩ : BufTy).Contents (Elt Ideal))
    (r : Fin 100000) (j : Fin 128) :
    val_main_v33 (F := Ideal) x0 x2 (ix2 r j) = Cert.Spec.rowDot x0 x2 r j := by
  rw [val_main_v33_apply]
  unfold Cert.Spec.rowDot
  refine Finset.sum_congr rfl fun k _ => ?_
  rw [lidx33, ridx33]

/-- The reference's projected features are the product array. -/
theorem ref_xw (x0 : (⟨S100000x128, .f32⟩ : BufTy).Contents (Elt Ideal)) (x2 : (⟨S128x128, .f32⟩ : BufTy).Contents (Elt Ideal)) :
    (val_main_v33 (F := Ideal) x0 x2 : S100000x128.Idx → EReal) = Cert.Spec.xwSpec x0 x2 := by
  funext j
  obtain ⟨r, c, rfl⟩ : ∃ (r : Fin 100000) (c : Fin 128), j = ix2 r c := ⟨j 0, j 1, eq_ix2 j⟩
  exact xw_entry x0 x2 r c

/-! ## The head -/

/-- Entry (r, k) of the projection product is the specification's row-by-column sum. -/
theorem proj_entry (x0 : (⟨S100000x128, .f32⟩ : BufTy).Contents (Elt Ideal)) (x4 : (⟨S128x128, .f32⟩ : BufTy).Contents (Elt Ideal))
    (r : Fin 100000) (k : Fin 128) :
    val_main_v50 (F := Ideal) x0 x4 (ix2 r k) = Cert.Spec.rowDot x0 x4 r k := by
  rw [val_main_v50_apply]
  unfold Cert.Spec.rowDot
  refine Finset.sum_congr rfl fun q _ => ?_
  rw [lidx50, ridx50]

/-- The convolution bias, broadcast over the nodes, reads entry k of the bias vector at (r, k). -/
theorem bias_conv (x3 : (⟨S128, .f32⟩ : BufTy).Contents (Elt Ideal)) (r : Fin 100000) (k : Fin 128) :
    val_main_v48 (F := Ideal) x3 (ix2 r k) = x3 (ix1 k) := by
  rw [val_main_v48_apply, val_main_v47_apply]
  exact congrArg x3 (funext fun a => Fin.ext (by match a with | ⟨0, _⟩ => rfl))

/-- The projection bias, broadcast over the nodes, reads entry k of the bias vector at (r, k). -/
theorem bias_proj (x5 : (⟨S128, .f32⟩ : BufTy).Contents (Elt Ideal)) (r : Fin 100000) (k : Fin 128) :
    val_main_v53 (F := Ideal) x5 (ix2 r k) = x5 (ix1 k) := by
  rw [val_main_v53_apply, val_main_v52_apply]
  exact congrArg x5 (funext fun a => Fin.ext (by match a with | ⟨0, _⟩ => rfl))

/-- The output bias, broadcast over the nodes, reads the one entry of the bias vector at (r, 0). -/
theorem bias_out (x7 : (⟨S1, .f32⟩ : BufTy).Contents (Elt Ideal)) (r : Fin 100000) :
    val_main_v58 (F := Ideal) x7 (ix2 r (0 : Fin 1)) = x7 (ix1 (0 : Fin 1)) := by
  rw [val_main_v58_apply, val_main_v57_apply]
  exact congrArg x7 (funext fun a => Fin.ext (by match a with | ⟨0, _⟩ => rfl))

/-- The clamp's zero array reads the f32 word of +0 everywhere. -/
theorem zero_entry (r : Fin 100000) (k : Fin 128) :
    val_main_call1_v0 (F := Ideal) (ix2 r k) = Cert.Spec.zero := by
  rw [val_main_call1_v0_apply, val_main_call1_cst_apply]

/-- Hidden unit k of node r: the reference's clamped sum is the specification's, addition by addition. -/
theorem hidden_entry (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 100000) (k : Fin 128) :
    val_main_v55 (F := Ideal) x0 x1 x2 x3 x4 x5 (ix2 r k)
      = Cert.Spec.hidden x0 (val_main_v46 (F := Ideal) x0 x1 x2) (fun j => x3 (ix1 (j 1))) x4 (fun j => x5 (ix1 (j 1))) r k := by
  rw [val_main_v55_apply, val_main_v54_apply, val_main_v51_apply, val_main_v49_apply,
    zero_entry, bias_proj, proj_entry, bias_conv]
  rfl

/-- The reshape to a vector reads entry (r, 0) of the 100000 × 1 result. -/
theorem idx60 (r : Fin 100000) : idx_main_v60 (ix1 r) = ix2 r (0 : Fin 1) :=
  funext fun a => Fin.ext (by
    match a with
    | ⟨0, _⟩ => exact Nat.div_one r.val
    | ⟨1, _⟩ => rfl)

/-- The reference's result at node r, over its own aggregated messages (the stage val_main_v46, kept opaque). -/
theorem ref_out (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) (r : Fin 100000) :
    val_main_v60 (F := Ideal) x0 x1 x2 x3 x4 x5 x6 x7 (ix1 r)
      = Cert.Spec.headEntry x0 (val_main_v46 (F := Ideal) x0 x1 x2) (fun j => x3 (ix1 (j 1))) x4 (fun j => x5 (ix1 (j 1))) x6 (fun j => x7 (ix1 (j 1))) r := by
  rw [val_main_v60_apply, idx60, val_main_v59_apply, bias_out, val_main_v56_apply]
  unfold Cert.Spec.headEntry
  refine congrArg (fun s => FloatOps.addf (F := Ideal) (φ := .f32) s (x7 (ix1 (0 : Fin 1)))) ?_
  refine Finset.sum_congr rfl fun k _ => ?_
  rw [lidx56, ridx56, hidden_entry]

end Cert.ReferenceIdeal.RefSpec

end
-- ==== Proof.Bridge.lean ====
/-
  The two programs compute the same vector. At the ideal instance the kernel's result at node r is `headEntry` over the
  aggregated messages `conv (x · W_conv) edges` (the first pallas_call's output array is the product `x · W_conv`; the host
  operations between the pallas_calls are the reference's; the second pallas_call's output array is `headSpec` of what it
  finds), and the reference's result at node r is the same `headEntry` over `conv` of its own host product `x · W_conv`.
  The biases reach the kernel as one-row arrays and the reference as vectors read at the column: the same entries.
-/
import proofs.«135737_j63393717289295_1_alg».proof.Proof.KI.Host
import proofs.«135737_j63393717289295_1_alg».proof.Proof.KI.Value0
import proofs.«135737_j63393717289295_1_alg».proof.Proof.KI.Value1
import proofs.«135737_j63393717289295_1_alg».proof.Proof.RefSpec
import proofs.«135737_j63393717289295_1_alg».proof.Proof.RefMid
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.Spec

/-! ## Layout reads -/

/-- A 128-vector as a 1 × 128 row, read at column k: the vector's entry k. -/
theorem row128_apply (x : (⟨1, ![128]⟩ : Shape).Idx → EReal) (h : (⟨1, ![128]⟩ : Shape).ShapeCasts ⟨2, ![1, 128]⟩) (k : Fin 128) :
    shapeCast (⟨2, ![1, 128]⟩ : Shape) x h (ix2 0 k) = x (ix1 k) :=
  shapeCast_apply x h (ix2 0 k) (ix1 k) (by
    rewrite [Shape.rowMajor_val_two, Shape.rowMajor_val_one]
    show k.val = 0 * 128 + k.val; omega)

/-- A 1-vector as a 1 × 1 array: its one entry. -/
theorem row1_apply (x : (⟨1, ![1]⟩ : Shape).Idx → EReal) (h : (⟨1, ![1]⟩ : Shape).ShapeCasts ⟨2, ![1, 1]⟩) :
    shapeCast (⟨2, ![1, 1]⟩ : Shape) x h (ix2 0 0) = x (ix1 0) :=
  shapeCast_apply x h (ix2 0 0) (ix1 0) (by
    rewrite [Shape.rowMajor_val_two, Shape.rowMajor_val_one]
    show (0 : Nat) = 0 * 1 + 0; omega)

/-- A 100000 × 1 array as a vector, read at r: the array's entry (r, 0). -/
theorem col_apply (y : (⟨2, ![100000, 1]⟩ : Shape).Idx → EReal) (h : (⟨2, ![100000, 1]⟩ : Shape).ShapeCasts ⟨1, ![100000]⟩) (r : Fin 100000) :
    shapeCast (⟨1, ![100000]⟩ : Shape) y h (ix1 r) = y (ix2 r 0) :=
  shapeCast_apply y h (ix1 r) (ix2 r 0) (by
    rewrite [Shape.rowMajor_val_two, Shape.rowMajor_val_one]
    show r.val * 1 + 0 = r.val; omega)

/-- A node's output reads the two bias rows and the output bias only at their entries. -/
theorem headEntry_congr (x conv : Arr 100000 128) (wp : Arr 128 128) (wo : Arr 128 1) (bc bc' bp bp' : Arr 1 128) (bo bo' : Arr 1 1)
    (hbc : ∀ k : Fin 128, bc (ix2 0 k) = bc' (ix2 0 k)) (hbp : ∀ k : Fin 128, bp (ix2 0 k) = bp' (ix2 0 k))
    (hbo : bo (ix2 0 0) = bo' (ix2 0 0)) (r : Fin 100000) :
    headEntry x conv bc wp bp wo bo r = headEntry x conv bc' wp bp' wo bo' r := by
  unfold Cert.Spec.headEntry Cert.Spec.hidden
  simp only [hbc, hbp, hbo]

/-! ## The kernel's result -/

section Kernel

open Cert.KernelIdeal Cert.KernelIdeal.Gen Cert.KernelIdeal.Whole Cert.KernelIdeal.HostK

variable (m : (ℓ : Loc nD τ sig) → Buf (Elt Ideal) ℓ)

/-- The aggregated messages of the kernel's program, as a function of its arguments. -/
abbrev kconv (c : Dev nD) : Arr 100000 128 :=
  Cert.ReferenceIdeal.Mid.conv (F := Ideal) (xwSpec (m ((c : Thread nD τ).loc main_arg0)) (m ((c : Thread nD τ).loc main_arg2)))
    (m ((c : Thread nD τ).loc main_arg1))

/-- The second pallas_call's output array, as a function of the program's arguments. -/
theorem out_array (c : Dev nD) :
    (W5 m c (Proc.devRef .tc main_v50) : Arr 100000 1)
      = headSpec (m ((c : Thread nD τ).loc main_arg0)) (kconv m c)
          (shapeCast S1x128 (m ((c : Thread nD τ).loc main_arg3)) shapeCasts_S128_S1x128) (m ((c : Thread nD τ).loc main_arg4))
          (shapeCast S1x128 (m ((c : Thread nD τ).loc main_arg5)) shapeCasts_S128_S1x128) (m ((c : Thread nD τ).loc main_arg6))
          (shapeCast S1x1 (m ((c : Thread nD τ).loc main_arg7)) shapeCasts_S1_S1x1) := by
  have h0 : (W1 m c (Proc.devRef .tc main_v0) : Arr 100000 128)
      = xwSpec (m ((c : Thread nD τ).loc main_arg0)) (m ((c : Thread nD τ).loc main_arg2)) :=
    (W1_arr m c 2).trans (Cert.KernelIdeal.Reg.arr0 (E0 m) c)
  refine ((W5_arr m c 7).trans (Cert.KernelIdeal.Reg1.arr1 (E4 m) c)).trans ?_
  show headSpec (W4 m c (Proc.devRef .tc main_arg0)) (W4 m c (Proc.devRef .tc main_v46)) (W4 m c (Proc.devRef .tc main_v47))
      (W4 m c (Proc.devRef .tc main_arg4)) (W4 m c (Proc.devRef .tc main_v48)) (W4 m c (Proc.devRef .tc main_arg6))
      (W4 m c (Proc.devRef .tc main_v49)) = _
  rw [W4_arg0 m c, W4_conv m c, W4_bconv m c, W4_arg4 m c, W4_bproj m c, W4_arg6 m c, W4_bout m c, h0]

/-- The kernel's result at node r. -/
theorem kernel_out (c : Dev nD) (r : Fin 100000) :
    (W6 m c (Proc.devRef .tc main_v51) : (⟨1, ![100000]⟩ : Shape).Idx → EReal) (ix1 r)
      = headEntry (m ((c : Thread nD τ).loc main_arg0)) (kconv m c)
          (fun j => m ((c : Thread nD τ).loc main_arg3) (ix1 (j 1))) (m ((c : Thread nD τ).loc main_arg4))
          (fun j => m ((c : Thread nD τ).loc main_arg5) (ix1 (j 1))) (m ((c : Thread nD τ).loc main_arg6))
          (fun j => m ((c : Thread nD τ).loc main_arg7) (ix1 (j 1))) r := by
  rw [W6_out m c]
  refine (col_apply _ _ r).trans ?_
  rw [out_array m c, headSpec_apply]
  exact headEntry_congr _ _ _ _ _ _ _ _ _ _ (fun k => row128_apply _ _ k) (fun k => row128_apply _ _ k) (row1_apply _ _) r

end Kernel

/-! ## The reference's result, and the two together -/

section Both

open Cert.ReferenceIdeal.ReadP

/-- The reference's result at node r, over `conv` of the product array. -/
theorem ref_out' (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x1, .f32⟩ : BufTy).Contents (Elt Ideal)) (x7 : (⟨Cert.ReferenceIdeal.S1, .f32⟩ : BufTy).Contents (Elt Ideal)) (r : Fin 100000) :
    val_main_v60 (F := Ideal) x0 x1 x2 x3 x4 x5 x6 x7 (ix1 r)
      = headEntry x0 (Cert.ReferenceIdeal.Mid.conv (F := Ideal) (xwSpec x0 x2) x1) (fun j => x3 (ix1 (j 1))) x4 (fun j => x5 (ix1 (j 1))) x6 (fun j => x7 (ix1 (j 1))) r := by
  rw [Cert.ReferenceIdeal.RefSpec.ref_out, Cert.ReferenceIdeal.Mid.conv_ref, Cert.ReferenceIdeal.RefSpec.ref_xw]

end Both

end Cert.Bridge

end
-- ==== Proof.lean ====
/-
  A graph convolution with a dense head: `relu((A·(x·W_conv)) + b_conv + x·W_proj + b_proj)·W_out + b_out`, where `A` is the
  symmetrically normalised adjacency of the edge list with two rounds of self loops. The kernel's program computes
  `x·W_conv` in one pallas_call (20 row blocks of 5000 nodes), aggregates along the edges with the host's gather and
  scatter-add, and computes the rest in a second pallas_call over the same row blocks; the reference does everything on
  the host. At the ideal instance a change of float format is the identity and a matrix product into a zero accumulator is
  the plain sum over the contracted axis, so the two programs apply the same operations in the same order to the same
  arguments: no law of the extended reals beyond that is used, and the precondition is never opened.

  The three frames: each program runs to the end, nothing faulting, and leaves its arguments as launched — for the
  kernel's programs from the run over @main's six segments (at any float instance), for the reference from its run with
  the result dropped. The idealization rewrote nothing. The value claim: the kernel's result buffer at the return, read
  at node r, and the reference's, read at node r, are one and the same function of the arguments.
-/
import proofs.«135737_j63393717289295_1_alg».proof.Defs
import proofs.«135737_j63393717289295_1_alg».proof.Proof.Gen.Kernel
import proofs.«135737_j63393717289295_1_alg».proof.Proof.Gen.KernelIdeal
import proofs.«135737_j63393717289295_1_alg».proof.Proof.Gen.ReferenceIdeal
import proofs.«135737_j63393717289295_1_alg».proof.Proof.Gen.Pre_finite_inputs
import proofs.«135737_j63393717289295_1_alg».proof.Proof.K.Run
import proofs.«135737_j63393717289295_1_alg».proof.Proof.KI.Run
import proofs.«135737_j63393717289295_1_alg».proof.Proof.RefRun
import proofs.«135737_j63393717289295_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel's program as printed runs and keeps its arguments. -/
theorem frame_k : Cert.frame_Kernel := fun m ρ _ => Cert.Kernel.Whole.frame m ρ

/-- So does its idealization. -/
theorem frame_ki : Cert.frame_KernelIdeal := fun m ρ _ => Cert.KernelIdeal.Whole.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments the two idealized programs end with the same result vector: at node r
    both hold `headEntry` over `conv (x·W_conv) edges`. -/
theorem algebraic : Cert.algebraic_KernelIdeal_ReferenceIdeal := by
  intro m ρ m' ρ' _ hagree
  refine ⟨fun c => Cert.KernelIdeal.Whole.W6 m c (Proc.devRef .tc Cert.KernelIdeal.main_v51), Cert.KernelIdeal.Whole.run m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.ReadP.val_main_v60_eq]
  funext i
  obtain ⟨r, rfl⟩ : ∃ r : Fin 100000, i = ix1 r := ⟨i 0, eq_ix1 i⟩
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Bridge.ref_out' _ _ _ _ _ _ _ _ r).trans (Cert.Bridge.kernel_out m c r).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
